-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x512 .f32) (main_arg1 : IVec S2x800000 32) (main_arg2 : FVec F S512x256 .f32) (main_arg3 : FVec F S256 .f32) (main_arg4 : FVec F S256x64 .f32) (main_arg5 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x512 : Shape := ⟨2, ![2000, 512]⟩
abbrev S2000x256 : Shape := ⟨2, ![2000, 256]⟩
abbrev S850000x256 : Shape := ⟨2, ![850000, 256]⟩
abbrev S1x256 : Shape := ⟨2, ![1, 256]⟩
abbrev S50000x64 : Shape := ⟨2, ![50000, 64]⟩
abbrev S5000x256 : Shape := ⟨2, ![5000, 256]⟩
abbrev S5000x64 : Shape := ⟨2, ![5000, 64]⟩
abbrev S850000x64 : Shape := ⟨2, ![850000, 64]⟩
abbrev S1x64 : Shape := ⟨2, ![1, 64]⟩
abbrev S50000x1 : Shape := ⟨2, ![50000, 1]⟩

abbrev nBuf : Space → Nat
  | .hbm => 107
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S850000x1, .f32⟩
  | .hbm, ⟨47, _⟩ => ⟨S50000x512, .bf16⟩
  | .hbm, ⟨48, _⟩ => ⟨S512x256, .bf16⟩
  | .hbm, ⟨49, _⟩ => ⟨S50000x256, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x256, .f32⟩
  | .hbm, ⟨59, _⟩ => ⟨S850000x256, .f32⟩
  | .hbm, ⟨60, _⟩ => ⟨S850000x256, .f32⟩
  | .hbm, ⟨61, _⟩ => ⟨S_, .f32⟩
  | .hbm, ⟨62, _⟩ => ⟨S50000x256, .f32⟩
  | .hbm, ⟨63, _⟩ => ⟨S850000x1, .i32⟩
  | .hbm, ⟨64, _⟩ => ⟨S50000x256, .f32⟩
  | .hbm, ⟨65, _⟩ => ⟨S1x256, .f32⟩
  | .hbm, ⟨66, _⟩ => ⟨S50000x256, .f32⟩
  | .hbm, ⟨67, _⟩ => ⟨S50000x256, .f32⟩
  | .hbm, ⟨68, _⟩ => ⟨S_, .f32⟩
  | .hbm, ⟨69, _⟩ => ⟨S50000x256, .f32⟩
  | .hbm, ⟨70, _⟩ => ⟨S50000x256, .f32⟩
  | .hbm, ⟨71, _⟩ => ⟨S50000x256, .bf16⟩
  | .hbm, ⟨72, _⟩ => ⟨S256x64, .bf16⟩
  | .hbm, ⟨73, _⟩ => ⟨S50000x64, .f32⟩
  | .hbm, ⟨74, _⟩ => ⟨S_, .i32⟩
  | .hbm, ⟨75, _⟩ => ⟨S850000, .i32⟩
  | .hbm, ⟨76, _⟩ => ⟨S850000, .i1⟩
  | .hbm, ⟨77, _⟩ => ⟨S_, .i32⟩
  | .hbm, ⟨78, _⟩ => ⟨S850000, .i32⟩
  | .hbm, ⟨79, _⟩ => ⟨S850000, .i32⟩
  | .hbm, ⟨80, _⟩ => ⟨S850000, .i32⟩
  | .hbm, ⟨81, _⟩ => ⟨S850000x1, .i32⟩
  | .hbm, ⟨82, _⟩ => ⟨S850000x64, .f32⟩
  | .hbm, ⟨83, _⟩ => ⟨S850000x64, .f32⟩
  | .hbm, ⟨84, _⟩ => ⟨S850000x64, .f32⟩
  | .hbm, ⟨85, _⟩ => ⟨S_, .f32⟩
  | .hbm, ⟨86, _⟩ => ⟨S50000x64, .f32⟩
  | .hbm, ⟨87, _⟩ => ⟨S850000x1, .i32⟩
  | .hbm, ⟨88, _⟩ => ⟨S50000x64, .f32⟩
  | .hbm, ⟨89, _⟩ => ⟨S1x64, .f32⟩
  | .hbm, ⟨90, _⟩ => ⟨S50000x64, .f32⟩
  | .hbm, ⟨91, _⟩ => ⟨S50000x64, .f32⟩
  | .hbm, ⟨92, _⟩ => ⟨S_, .f32⟩
  | .hbm, ⟨93, _⟩ => ⟨S50000, .f32⟩
  | .hbm, ⟨94, _⟩ => ⟨S_, .f32⟩
  | .hbm, ⟨95, _⟩ => ⟨S50000, .f32⟩
  | .hbm, ⟨96, _⟩ => ⟨S50000, .f32⟩
  | .hbm, ⟨97, _⟩ => ⟨S50000x1, .f32⟩
  | .hbm, ⟨98, _⟩ => ⟨S50000x64, .f32⟩
  | .hbm, ⟨99, _⟩ => ⟨S50000x64, .f32⟩
  | .hbm, ⟨100, _⟩ => ⟨S50000x64, .f32⟩
  | .hbm, ⟨101, _⟩ => ⟨S_, .f32⟩
  | .hbm, ⟨102, _⟩ => ⟨S50000, .f32⟩
  | .hbm, ⟨103, _⟩ => ⟨S50000x1, .f32⟩
  | .hbm, ⟨104, _⟩ => ⟨S50000x1, .f32⟩
  | .hbm, ⟨105, _⟩ => ⟨S50000x64, .f32⟩
  | .hbm, ⟨106, _⟩ => ⟨S50000x64, .f32⟩
  | .local _ .vmem, ⟨0, _⟩ => ⟨S2000x512, .bf16⟩
  | .local _ .vmem, ⟨1, _⟩ => ⟨S2000x512, .bf16⟩
  | .local _ .vmem, ⟨2, _⟩ => ⟨S512x256, .bf16⟩
  | .local _ .vmem, ⟨3, _⟩ => ⟨S2000x256, .f32⟩
  | .local _ .vmem, ⟨4, _⟩ => ⟨S2000x256, .f32⟩
  | .local _ .vmem, ⟨5, _⟩ => ⟨S5000x256, .bf16⟩
  | .local _ .vmem, ⟨6, _⟩ => ⟨S5000x256, .bf16⟩
  | .local _ .vmem, ⟨7, _⟩ => ⟨S256x64, .bf16⟩
  | .local _ .vmem, ⟨8, _⟩ => ⟨S5000x64, .f32⟩
  | .local _ .vmem, ⟨9, _⟩ => ⟨S5000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call1_v0 : Ref sig .tc := ⟨.hbm, 47, rfl⟩
abbrev main_call1_v1 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call2_cst : Ref sig .tc := ⟨.hbm, 68, rfl⟩
abbrev main_call2_v0 : Ref sig .tc := ⟨.hbm, 69, rfl⟩
abbrev main_v47 : Ref sig .tc := ⟨.hbm, 70, rfl⟩
abbrev main_call3_v0 : Ref sig .tc := ⟨.hbm, 71, rfl⟩
abbrev main_call3_v1 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_11 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_call4_cst : Ref sig .tc := ⟨.hbm, 92, rfl⟩
abbrev main_call4_v0 : Ref sig .tc := ⟨.hbm, 93, rfl⟩
abbrev main_call4_cst_0 : Ref sig .tc := ⟨.hbm, 94, rfl⟩
abbrev main_call4_v1 : Ref sig .tc := ⟨.hbm, 95, rfl⟩
abbrev main_call4_v2 : Ref sig .tc := ⟨.hbm, 96, rfl⟩
abbrev main_call4_v3 : Ref sig .tc := ⟨.hbm, 97, rfl⟩
abbrev main_call4_v4 : Ref sig .tc := ⟨.hbm, 98, rfl⟩
abbrev main_call4_v5 : Ref sig .tc := ⟨.hbm, 99, rfl⟩
abbrev main_call4_v6 : Ref sig .tc := ⟨.hbm, 100, rfl⟩
abbrev main_call4_cst_1 : Ref sig .tc := ⟨.hbm, 101, rfl⟩
abbrev main_call4_v7 : Ref sig .tc := ⟨.hbm, 102, rfl⟩
abbrev main_call4_v8 : Ref sig .tc := ⟨.hbm, 103, rfl⟩
abbrev main_call4_v9 : Ref sig .tc := ⟨.hbm, 104, rfl⟩
abbrev main_call4_v10 : Ref sig .tc := ⟨.hbm, 105, rfl⟩
abbrev main_v64 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x256_S2000x256_1_0_0_1_n_n_wf : DotDims.WF S2000x512 S512x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x64_S5000x64_1_0_0_1_n_n_wf : DotDims.WF S5000x256 S256x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .bf16 = 32 ∨ (Rect.block (s := S50000x512) S2000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .bf16 = 32 ∨ (Rect.block (s := S50000x256) S5000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .bf16 = 32 ∨ (Rect.block (s := S256x64) S256x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_call1_v0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call1_v1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call3_v0) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call3_v1) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩

abbrev nBuf : Space → Nat
  | .hbm => 123
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x256, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S850000x1, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x256, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000, .f32⟩
  | .hbm, ⟨79, _⟩ => ⟨S_, .i32⟩
  | .hbm, ⟨80, _⟩ => ⟨S850000, .i32⟩
  | .hbm, ⟨81, _⟩ => ⟨S850000, .i1⟩
  | .hbm, ⟨82, _⟩ => ⟨S_, .i32⟩
  | .hbm, ⟨83, _⟩ => ⟨S850000, .i32⟩
  | .hbm, ⟨84, _⟩ => ⟨S850000, .i32⟩
  | .hbm, ⟨85, _⟩ => ⟨S850000, .i32⟩
  | .hbm, ⟨86, _⟩ => ⟨S850000x1, .i32⟩
  | .hbm, ⟨87, _⟩ => ⟨S850000, .f32⟩
  | .hbm, ⟨88, _⟩ => ⟨S850000, .f32⟩
  | .hbm, ⟨89, _⟩ => ⟨S850000x1, .f32⟩
  | .hbm, ⟨90, _⟩ => ⟨S_, .i32⟩
  | .hbm, ⟨91, _⟩ => ⟨S850000, .i32⟩
  | .hbm, ⟨92, _⟩ => ⟨S850000, .i1⟩
  | .hbm, ⟨93, _⟩ => ⟨S_, .i32⟩
  | .hbm, ⟨94, _⟩ => ⟨S850000, .i32⟩
  | .hbm, ⟨95, _⟩ => ⟨S850000, .i32⟩
  | .hbm, ⟨96, _⟩ => ⟨S850000, .i32⟩
  | .hbm, ⟨97, _⟩ => ⟨S850000x1, .i32⟩
  | .hbm, ⟨98, _⟩ => ⟨S850000x64, .f32⟩
  | .hbm, ⟨99, _⟩ => ⟨S850000x64, .f32⟩
  | .hbm, ⟨100, _⟩ => ⟨S850000x64, .f32⟩
  | .hbm, ⟨101, _⟩ => ⟨S_, .f32⟩
  | .hbm, ⟨102, _⟩ => ⟨S50000x64, .f32⟩
  | .hbm, ⟨103, _⟩ => ⟨S850000x1, .i32⟩
  | .hbm, ⟨104, _⟩ => ⟨S50000x64, .f32⟩
  | .hbm, ⟨105, _⟩ => ⟨S1x64, .f32⟩
  | .hbm, ⟨106, _⟩ => ⟨S50000x64, .f32⟩
  | .hbm, ⟨107, _⟩ => ⟨S50000x64, .f32⟩
  | .hbm, ⟨108, _⟩ => ⟨S_, .f32⟩
  | .hbm, ⟨109, _⟩ => ⟨S50000, .f32⟩
  | .hbm, ⟨110, _⟩ => ⟨S_, .f32⟩
  | .hbm, ⟨111, _⟩ => ⟨S50000, .f32⟩
  | .hbm, ⟨112, _⟩ => ⟨S50000, .f32⟩
  | .hbm, ⟨113, _⟩ => ⟨S50000x1, .f32⟩
  | .hbm, ⟨114, _⟩ => ⟨S50000x64, .f32⟩
  | .hbm, ⟨115, _⟩ => ⟨S50000x64, .f32⟩
  | .hbm, ⟨116, _⟩ => ⟨S50000x64, .f32⟩
  | .hbm, ⟨117, _⟩ => ⟨S_, .f32⟩
  | .hbm, ⟨118, _⟩ => ⟨S50000, .f32⟩
  | .hbm, ⟨119, _⟩ => ⟨S50000x1, .f32⟩
  | .hbm, ⟨120, _⟩ => ⟨S50000x1, .f32⟩
  | .hbm, ⟨121, _⟩ => ⟨S50000x64, .f32⟩
  | .hbm, ⟨122, _⟩ => ⟨S50000x64, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_call2_cst : Ref sig .tc := ⟨.hbm, 108, rfl⟩
abbrev main_call2_v0 : Ref sig .tc := ⟨.hbm, 109, rfl⟩
abbrev main_call2_cst_0 : Ref sig .tc := ⟨.hbm, 110, rfl⟩
abbrev main_call2_v1 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_call2_v5 : Ref sig .tc := ⟨.hbm, 115, rfl⟩
abbrev main_call2_v6 : Ref sig .tc := ⟨.hbm, 116, rfl⟩
abbrev main_call2_cst_1 : Ref sig .tc := ⟨.hbm, 117, rfl⟩
abbrev main_call2_v7 : Ref sig .tc := ⟨.hbm, 118, rfl⟩
abbrev main_call2_v8 : Ref sig .tc := ⟨.hbm, 119, rfl⟩
abbrev main_call2_v9 : Ref sig .tc := ⟨.hbm, 120, rfl⟩
abbrev main_call2_v10 : Ref sig .tc := ⟨.hbm, 121, rfl⟩
abbrev main_v80 : Ref sig .tc := ⟨.hbm, 122, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  scatter_S50000_S850000x1_S850000_n_0_0_1_wf : ScatterDims.WF S50000 S850000x1 S850000 [] [0] [0] 1
  dot_S50000x512_S512x256_S50000x256_1_0_0_1_n_n_wf : DotDims.WF S50000x512 S512x256 S50000x256 [1] [0] [0] [1] [] []
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x64_S50000x64_1_0_0_1_n_n_wf : DotDims.WF S50000x256 S256x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Region0.lean ====
/-
  Region 0 of the kernel program: a row-blocked matrix product. Every grid point loads one block of rows of the
  left array and the whole right array, multiplies them into a zero accumulator and stores the block of rows of the
  result; the blocks tile the result array, so after the last point the array holds the full product, entry (r, j)
  being the sum over k of left (r, k) times right (k, j).
-/
import proofs.«164223_j27659589386355_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Region0

open Cert.KernelIdeal Cert.KernelIdeal.Gen

/-- The left operand's index for result entry `i` and contraction position `k`: row of `i`, column `k`. -/
abbrev lrow (i : S50000x256.Idx) (k : Fin 512) : S50000x512.Idx := fun a => match a with
  | ⟨0, _⟩ => ⟨(i 0).val, (i 0).isLt⟩
  | ⟨1, _⟩ => ⟨k.val, k.isLt⟩
/-- The right operand's index for result entry `i` and contraction position `k`: row `k`, column of `i`. -/
abbrev rcol (i : S50000x256.Idx) (k : Fin 512) : S512x256.Idx := fun a => match a with
  | ⟨0, _⟩ => ⟨k.val, k.isLt⟩
  | ⟨1, _⟩ => ⟨(i 1).val, (i 1).isLt⟩

/-- The full matrix product of two arrays of extended reals, entry by entry. -/
def product (a : S50000x512.Idx → EReal) (b : S512x256.Idx → EReal) : S50000x256.Idx → EReal :=
  fun i => ∑ k : Fin 512, a (lrow i k) * b (rcol i k)

/-! ## The block product at an index

One grid point multiplies a block of 2000 rows of the left array by the whole right array. Its entry at row `r` and
column `c` of the block is the sum over the 512 contraction positions `k` of left `(r, k)` times right `(k, c)`. -/

/-- On its row axis the block product's left operand is read at the result entry's row. -/
theorem blockLeft_row (j : S2000x256.Idx) (q : dot_S2000x512_S512x256_S2000x256_1_0_0_1_n_n.contr.Idx) :
    (dot_S2000x512_S512x256_S2000x256_1_0_0_1_n_n.lhsIdx j q 0).val = (j 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
/-- On its column axis, the contracted one, the left operand is read at the contraction position. -/
theorem blockLeft_col (j : S2000x256.Idx) (q : dot_S2000x512_S512x256_S2000x256_1_0_0_1_n_n.contr.Idx) :
    (dot_S2000x512_S512x256_S2000x256_1_0_0_1_n_n.lhsIdx j q 1).val = (q ⟨0, by decide⟩).val :=
  dot_S2000x512_S512x256_S2000x256_1_0_0_1_n_n.lhsIdx_val_of_single rfl j q
/-- On its row axis, the contracted one, the right operand is read at the contraction position. -/
theorem blockRight_row (j : S2000x256.Idx) (q : dot_S2000x512_S512x256_S2000x256_1_0_0_1_n_n.contr.Idx) :
    (dot_S2000x512_S512x256_S2000x256_1_0_0_1_n_n.rhsIdx j q 0).val = (q ⟨0, by decide⟩).val :=
  dot_S2000x512_S512x256_S2000x256_1_0_0_1_n_n.rhsIdx_val_of_single rfl j q
/-- On its column axis the right operand is read at the result entry's column. -/
theorem blockRight_col (j : S2000x256.Idx) (q : dot_S2000x512_S512x256_S2000x256_1_0_0_1_n_n.contr.Idx) :
    (dot_S2000x512_S512x256_S2000x256_1_0_0_1_n_n.rhsIdx j q 1).val = (j 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- Inside a block: the left block's index for block entry `j` and contraction position `k`: row of `j`, column `k`. -/
abbrev blockLeftIdx (j : S2000x256.Idx) (k : Fin 512) : S2000x512.Idx := fun a => match a with
  | ⟨0, _⟩ => ⟨(j 0).val, (j 0).isLt⟩
  | ⟨1, _⟩ => ⟨k.val, k.isLt⟩
/-- Inside a block: the right array's index for block entry `j` and contraction position `k`: row `k`, column of `j`. -/
abbrev blockRightIdx (j : S2000x256.Idx) (k : Fin 512) : S512x256.Idx := fun a => match a with
  | ⟨0, _⟩ => ⟨k.val, k.isLt⟩
  | ⟨1, _⟩ => ⟨(j 1).val, (j 1).isLt⟩

/-- The body's product of a left block and the right array, into the zero accumulator, read at a block entry: the sum
    over the contraction positions of the two factors' products (over the extended reals the product is that exact sum,
    and a cast of a shape to itself changes nothing). -/
theorem blockProduct_apply (x0 : Vec Ideal S2000x512 .bf16) (x1 : Vec Ideal S512x256 .bf16) (j : S2000x256.Idx) :
    k0_pay1 (F := Ideal) x0 x1 j = ∑ k : Fin 512, x0 (blockLeftIdx j k) * x1 (blockRightIdx j k) := by
  unfold k0_pay1
  simp only [shapeCast_self, matmul]
  rw [Ideal.matmul_constant_zero_apply, ← Equiv.sum_comp (ValueIdx.contrEquiv1 dot_S2000x512_S512x256_S2000x256_1_0_0_1_n_n 512 rfl rfl).symm]
  refine Finset.sum_congr rfl fun k _ => ?_
  have hk := ValueIdx.contrEquiv1_symm_val dot_S2000x512_S512x256_S2000x256_1_0_0_1_n_n 512 rfl rfl k
  have el : dot_S2000x512_S512x256_S2000x256_1_0_0_1_n_n.lhsIdx j ((ValueIdx.contrEquiv1 dot_S2000x512_S512x256_S2000x256_1_0_0_1_n_n 512 rfl rfl).symm k) = blockLeftIdx j k := funext fun a => Fin.ext (by
    match a with
    | ⟨0, _⟩ => exact blockLeft_row _ _
    | ⟨1, _⟩ => exact (blockLeft_col _ _).trans hk)
  have er : dot_S2000x512_S512x256_S2000x256_1_0_0_1_n_n.rhsIdx j ((ValueIdx.contrEquiv1 dot_S2000x512_S512x256_S2000x256_1_0_0_1_n_n 512 rfl rfl).symm k) = blockRightIdx j k := funext fun a => Fin.ext (by
    match a with
    | ⟨0, _⟩ => exact (blockRight_row _ _).trans hk
    | ⟨1, _⟩ => exact blockRight_col _ _)
  rw [el, er]

/-! ## The blocks of one grid point

Point `t` of the 25 reads rows `2000 t … 2000 t + 1999` of the left array (all of its 512 columns) and the whole right
array, and writes rows `2000 t … 2000 t + 1999` of the result (all of its 256 columns). A block's coordinate in its
array is, axis by axis, the block index times the block's size plus the coordinate inside the block. -/

/-- The offsets of a load or store of a whole block: zero on both axes. -/
theorem zeroOffsets : (![0, 0] : Fin 2 → Nat) = fun _ => 0 := funext fun a => by fin_cases a <;> rfl

/-- The block indices at every grid point, decided over the 25 points: the left array's and the result's row block is
    the point's number, every column block and the right array's row block is block zero. -/
theorem blockIndices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val)

/-- An entry of the result array is in point `t`'s block iff each coordinate is in the block's range on its axis. -/
theorem mem_resultBlock (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v31).slice (win0_2.rect t)).set ↔ _
  rw [View.set_slice_whole, Rect.mem_set_unit]
  exact Iff.rfl

/-- Every entry of the result array is in the block of a point that writes back: row `r` lies in the block of point
    `r / 2000`, which is below 25 as `r` is below 50000, and every column is in every block. -/
theorem covered (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  have ht : (i 0).val / 2000 < cfg0.N := by rw [hN]; omega
  refine ⟨⟨(i 0).val / 2000, ht⟩, flush0_2 _, ?_⟩
  rw [mem_resultBlock]
  obtain ⟨-, -, -, -, e4, e5⟩ := blockIndices ⟨(i 0).val / 2000, ht⟩
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e5]
    show (i 0).val / 2000 * 2000 ≤ (i 0).val ∧ (i 0).val < (i 0).val / 2000 * 2000 + 2000
    omega
  | ⟨1, _⟩ =>
    show win0_2.index ⟨(i 0).val / 2000, ht⟩ (1 : Fin 2) * 256 ≤ (i 1).val ∧ (i 1).val < win0_2.index ⟨(i 0).val / 2000, ht⟩ (1 : Fin 2) * 256 + 256
    rw [e4]
    omega
variable (V : (c : Dev nD) → (b : Ref sig .tc) → Buf (Elt Ideal) ((c : Thread nD τ).loc b))

/-- The left block of point `t` at a block index reads the left array, as the region found it, at that row of the
    point's 2000 rows and the same column. -/
theorem leftBlock_apply (c : Dev nD) (t : Fin cfg0.N) (y : S2000x512.Idx) (k : S50000x512.Idx)
    (hk0 : (k 0).val = t.val * 2000 + (y 0).val) (hk1 : (k 1).val = (y 1).val) :
    (iblk0 (F := Ideal) V c 0 t : Vec Ideal S2000x512 .bf16) y = (V c main_call1_v0 : S50000x512.Idx → EReal) k := by
  obtain ⟨e0, e1, -, -, -, e5⟩ := blockIndices t
  unfold iblk0
  rw [View.read_apply]
  show (V c main_call1_v0 : S50000x512.Idx → EReal) _ = (V c main_call1_v0 : S50000x512.Idx → EReal) k
  congr 1
  funext a
  apply Fin.ext
  match a with
  | ⟨0, _⟩ => show win0_0.index t (0 : Fin 2) * 2000 + 1 * (y 0).val = (k 0).val; omega
  | ⟨1, _⟩ => show win0_0.index t (1 : Fin 2) * 512 + 1 * (y 1).val = (k 1).val; omega

/-- The right block of any point is the whole right array, as the region found it. -/
theorem rightBlock_apply (c : Dev nD) (t : Fin cfg0.N) (y : S512x256.Idx) (k : S512x256.Idx)
    (hk0 : (k 0).val = (y 0).val) (hk1 : (k 1).val = (y 1).val) :
    (iblk0 (F := Ideal) V c 1 t : Vec Ideal S512x256 .bf16) y = (V c main_call1_v1 : S512x256.Idx → EReal) k := by
  obtain ⟨-, -, e2, e3, -, -⟩ := blockIndices t
  unfold iblk0
  rw [View.read_apply]
  show (V c main_call1_v1 : S512x256.Idx → EReal) _ = (V c main_call1_v1 : S512x256.Idx → EReal) k
  congr 1
  funext a
  apply Fin.ext
  match a with
  | ⟨0, _⟩ => show win0_1.index t (0 : Fin 2) * 512 + 1 * (y 0).val = (k 0).val; omega
  | ⟨1, _⟩ => show win0_1.index t (1 : Fin 2) * 256 + 1 * (y 1).val = (k 1).val; omega

/-- The body's product of point `t`'s blocks, at block entry `y`, is the full product's entry at row
    `2000 t +` (row of `y`) and the column of `y`: both are the same sum over the contraction positions, factor by
    factor. -/
theorem pointProduct_apply (c : Dev nD) (t : Fin cfg0.N) (y : S2000x256.Idx) (i : S50000x256.Idx)
    (hi0 : (i 0).val = t.val * 2000 + (y 0).val) (hi1 : (i 1).val = (y 1).val) :
    k0_pay1 (F := Ideal) (iblk0 V c 0 t) (iblk0 V c 1 t) y = product (V c main_call1_v0) (V c main_call1_v1) i := by
  rw [blockProduct_apply]
  unfold product
  refine Finset.sum_congr rfl fun k _ => ?_
  rw [leftBlock_apply V c t (blockLeftIdx y k) (lrow i k) hi0 rfl, rightBlock_apply V c t (blockRightIdx y k) (rcol i k) rfl hi1]

/-- What point `t` writes back is its block of the full product of the two operand arrays as the region found them. -/
theorem flushed_eq (c : Dev nD) (t : Fin cfg0.N) :
    (dat0 (F := Ideal) V c).flushed 2 t
      = ((cfg0.win 2).blk t).view.read (Elt Ideal) (product (V c main_call1_v0) (V c main_call1_v1)) := by
  show (cfg0.win 2).cut (grid0.coords t) ((dat0 V c).after 2 t) = _
  rw [after0_2]
  unfold out0_2
  rw [View.canon_unit_zero zeroOffsets]
  simp only [View.ld_unit_zero (S := S2000x512) zeroOffsets, View.ld_unit_zero (S := S512x256) zeroOffsets]
  obtain ⟨-, -, -, -, e4, e5⟩ := blockIndices t
  funext j
  rw [View.read_apply]
  show k0_pay1 (F := Ideal) (iblk0 V c 0 t) (iblk0 V c 1 t) ((cfg0.win 2).xinj (grid0.coords t) j)
    = product (V c main_call1_v0) (V c main_call1_v1) (((cfg0.win 2).blk t).view.emb j)
  refine pointProduct_apply V c t _ _ ?_ ?_
  · show win0_2.index t (0 : Fin 2) * 2000 + 1 * (j 0).val = t.val * 2000 + (j 0).val
    omega
  · show win0_2.index t (1 : Fin 2) * 256 + 1 * (j 1).val = (j 1).val
    omega
/-- After the region's last grid point its result array holds the product of its two operand arrays as the region
    found them. -/
theorem arr_out (c : Dev nD) :
    (dat0 (F := Ideal) V c).arrAt 2 cfg0.N = product (V c main_call1_v0) (V c main_call1_v1) :=
  (dat0 V c).arrAt_eq_of_cover 2 (product (V c main_call1_v0) (V c main_call1_v1)) (fun t _ => flushed_eq V c t) covered

end Cert.KernelIdeal.Region0

end
-- ==== Proof.Region1.lean ====
/-
  Region 1 of the kernel program: a row-blocked matrix product. Every grid point loads one block of rows of the
  left array and the whole right array, multiplies them into a zero accumulator and stores the block of rows of the
  result; the blocks tile the result array, so after the last point the array holds the full product, entry (r, j)
  being the sum over k of left (r, k) times right (k, j).
-/
import proofs.«164223_j27659589386355_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Region1

open Cert.KernelIdeal Cert.KernelIdeal.Gen

/-- The left operand's index for result entry `i` and contraction position `k`: row of `i`, column `k`. -/
abbrev lrow (i : S50000x64.Idx) (k : Fin 256) : S50000x256.Idx := fun a => match a with
  | ⟨0, _⟩ => ⟨(i 0).val, (i 0).isLt⟩
  | ⟨1, _⟩ => ⟨k.val, k.isLt⟩
/-- The right operand's index for result entry `i` and contraction position `k`: row `k`, column of `i`. -/
abbrev rcol (i : S50000x64.Idx) (k : Fin 256) : S256x64.Idx := fun a => match a with
  | ⟨0, _⟩ => ⟨k.val, k.isLt⟩
  | ⟨1, _⟩ => ⟨(i 1).val, (i 1).isLt⟩

/-- The full matrix product of two arrays of extended reals, entry by entry. -/
def product (a : S50000x256.Idx → EReal) (b : S256x64.Idx → EReal) : S50000x64.Idx → EReal :=
  fun i => ∑ k : Fin 256, a (lrow i k) * b (rcol i k)

variable (V : (c : Dev nD) → (b : Ref sig .tc) → Buf (Elt Ideal) ((c : Thread nD τ).loc b))

/-! ## The block product at an index -/

/-- On the left operand's row axis the block product reads the row of the result entry. -/
theorem lhs_block_0 (j : S5000x64.Idx) (q : dot_S5000x256_S256x64_S5000x64_1_0_0_1_n_n.contr.Idx) :
    (dot_S5000x256_S256x64_S5000x64_1_0_0_1_n_n.lhsIdx j q 0).val = (j 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
/-- On the left operand's column axis, the contracted one, it reads the contraction position. -/
theorem lhs_block_1 (j : S5000x64.Idx) (q : dot_S5000x256_S256x64_S5000x64_1_0_0_1_n_n.contr.Idx) :
    (dot_S5000x256_S256x64_S5000x64_1_0_0_1_n_n.lhsIdx j q 1).val = (q ⟨0, by decide⟩).val :=
  dot_S5000x256_S256x64_S5000x64_1_0_0_1_n_n.lhsIdx_val_of_single rfl j q
/-- On the right operand's row axis, the contracted one, it reads the contraction position. -/
theorem rhs_block_0 (j : S5000x64.Idx) (q : dot_S5000x256_S256x64_S5000x64_1_0_0_1_n_n.contr.Idx) :
    (dot_S5000x256_S256x64_S5000x64_1_0_0_1_n_n.rhsIdx j q 0).val = (q ⟨0, by decide⟩).val :=
  dot_S5000x256_S256x64_S5000x64_1_0_0_1_n_n.rhsIdx_val_of_single rfl j q
/-- On the right operand's column axis it reads the column of the result entry. -/
theorem rhs_block_1 (j : S5000x64.Idx) (q : dot_S5000x256_S256x64_S5000x64_1_0_0_1_n_n.contr.Idx) :
    (dot_S5000x256_S256x64_S5000x64_1_0_0_1_n_n.rhsIdx j q 1).val = (j 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- Inside one block: the left block's index for block entry `j` and contraction position `k`. -/
abbrev brow (j : S5000x64.Idx) (k : Fin 256) : S5000x256.Idx := fun a => match a with
  | ⟨0, _⟩ => ⟨(j 0).val, (j 0).isLt⟩
  | ⟨1, _⟩ => ⟨k.val, k.isLt⟩
/-- Inside one block: the right array's index for block entry `j` and contraction position `k`. -/
abbrev bcol (j : S5000x64.Idx) (k : Fin 256) : S256x64.Idx := fun a => match a with
  | ⟨0, _⟩ => ⟨k.val, k.isLt⟩
  | ⟨1, _⟩ => ⟨(j 1).val, (j 1).isLt⟩

/-- The block product at an entry: the sum over the 256 contraction positions of the left block's row entry times
    the right array's column entry (an exact sum over the extended reals, the accumulator being zero). -/
theorem block_product_apply (x0 : Vec Ideal S5000x256 .bf16) (x1 : Vec Ideal S256x64 .bf16) (j : S5000x64.Idx) :
    k1_pay1 (F := Ideal) x0 x1 j = ∑ k : Fin 256, x0 (brow j k) * x1 (bcol j k) := by
  unfold k1_pay1
  simp only [shapeCast_self, matmul]
  rw [Ideal.matmul_constant_zero_apply, ← Equiv.sum_comp (ValueIdx.contrEquiv1 dot_S5000x256_S256x64_S5000x64_1_0_0_1_n_n 256 rfl rfl).symm]
  refine Finset.sum_congr rfl fun k _ => ?_
  have hk := ValueIdx.contrEquiv1_symm_val dot_S5000x256_S256x64_S5000x64_1_0_0_1_n_n 256 rfl rfl k
  have el : dot_S5000x256_S256x64_S5000x64_1_0_0_1_n_n.lhsIdx j ((ValueIdx.contrEquiv1 dot_S5000x256_S256x64_S5000x64_1_0_0_1_n_n 256 rfl rfl).symm k) = brow j k := funext fun a => Fin.ext (by
    match a with
    | ⟨0, _⟩ => exact lhs_block_0 _ _
    | ⟨1, _⟩ => exact (lhs_block_1 _ _).trans hk)
  have er : dot_S5000x256_S256x64_S5000x64_1_0_0_1_n_n.rhsIdx j ((ValueIdx.contrEquiv1 dot_S5000x256_S256x64_S5000x64_1_0_0_1_n_n 256 rfl rfl).symm k) = bcol j k := funext fun a => Fin.ext (by
    match a with
    | ⟨0, _⟩ => exact (rhs_block_0 _ _).trans hk
    | ⟨1, _⟩ => exact rhs_block_1 _ _)
  rw [el, er]

/-! ## What one grid point writes back -/

/-- The pair of zero offsets is the zero offset on every axis. -/
theorem hz : (![0, 0] : Fin 2 → Nat) = fun _ => 0 := funext fun a => by fin_cases a <;> rfl

/-- The block indices of the three windows at a grid point: the left array's and the result's row blocks are
    numbered by the point, every column block index is zero, and the right array is always read whole. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0)

/-- The left block at point `t` is rows `5000 t … 5000 t + 4999` of the left array: its entry `y` is the array's
    entry in row `5000 t + y₀`, column `y₁`. -/
theorem left_block_apply (c : Dev nD) (t : Fin cfg1.N) (y : S5000x256.Idx) (k : S50000x256.Idx)
    (hk0 : (k 0).val = t.val * 5000 + (y 0).val) (hk1 : (k 1).val = (y 1).val) :
    (iblk1 (F := Ideal) V c 0 t : Vec Ideal S5000x256 .bf16) y = (V c main_call3_v0 : S50000x256.Idx → EReal) k := by
  obtain ⟨e0, e1, -, -, -, -⟩ := index_facts t
  unfold iblk1
  rw [View.read_apply]
  show (V c main_call3_v0 : S50000x256.Idx → EReal) _ = (V c main_call3_v0 : S50000x256.Idx → EReal) _
  congr 1
  funext a
  apply Fin.ext
  match a with
  | ⟨0, _⟩ => show win1_0.index t (0 : Fin 2) * 5000 + 1 * (y 0).val = (k 0).val; rw [e0, hk0]; omega
  | ⟨1, _⟩ => show win1_0.index t (1 : Fin 2) * 256 + 1 * (y 1).val = (k 1).val; rw [e1, hk1]; omega

/-- The right block at every point is the whole right array. -/
theorem right_block_apply (c : Dev nD) (t : Fin cfg1.N) (y : S256x64.Idx) (k : S256x64.Idx)
    (hk0 : (k 0).val = (y 0).val) (hk1 : (k 1).val = (y 1).val) :
    (iblk1 (F := Ideal) V c 1 t : Vec Ideal S256x64 .bf16) y = (V c main_call3_v1 : S256x64.Idx → EReal) k := by
  obtain ⟨-, -, e2, e3, -, -⟩ := index_facts t
  unfold iblk1
  rw [View.read_apply]
  show (V c main_call3_v1 : S256x64.Idx → EReal) _ = (V c main_call3_v1 : S256x64.Idx → EReal) _
  congr 1
  funext a
  apply Fin.ext
  match a with
  | ⟨0, _⟩ => show win1_1.index t (0 : Fin 2) * 256 + 1 * (y 0).val = (k 0).val; rw [e2, hk0]; omega
  | ⟨1, _⟩ => show win1_1.index t (1 : Fin 2) * 64 + 1 * (y 1).val = (k 1).val; rw [e3, hk1]; omega

/-- Entry `j` of the block product at point `t` is entry `(5000 t + j₀, j₁)` of the full product: the row of the
    left block is that row of the left array, and the right block is the right array. -/
theorem point_entry (c : Dev nD) (t : Fin cfg1.N) (j : S5000x64.Idx) (i : S50000x64.Idx)
    (hi0 : (i 0).val = t.val * 5000 + (j 0).val) (hi1 : (i 1).val = (j 1).val) :
    k1_pay1 (F := Ideal) (iblk1 V c 0 t) (iblk1 V c 1 t) j = product (V c main_call3_v0) (V c main_call3_v1) i := by
  rw [block_product_apply]
  unfold product
  refine Finset.sum_congr rfl fun k _ => ?_
  have hl : (iblk1 (F := Ideal) V c 0 t : Vec Ideal S5000x256 .bf16) (brow j k) = (V c main_call3_v0 : S50000x256.Idx → EReal) (lrow i k) :=
    left_block_apply V c t (brow j k) (lrow i k) hi0 rfl
  have hr : (iblk1 (F := Ideal) V c 1 t : Vec Ideal S256x64 .bf16) (bcol j k) = (V c main_call3_v1 : S256x64.Idx → EReal) (rcol i k) :=
    right_block_apply V c t (bcol j k) (rcol i k) rfl hi1
  rw [hl, hr]

/-- What point `t` writes back to the result array is block `t` of the full product of the two operand arrays. -/
theorem flushed_eq (c : Dev nD) (t : Fin cfg1.N) :
    (dat1 (F := Ideal) V c).flushed 2 t
      = ((cfg1.win 2).blk t).view.read (Elt Ideal) (product (V c main_call3_v0) (V c main_call3_v1)) := by
  show (cfg1.win 2).cut (grid1.coords t) ((dat1 (F := Ideal) V c).after 2 t) = _
  rw [after1_2]
  unfold out1_2
  rw [View.canon_unit_zero hz]
  simp only [View.ld_unit_zero (S := S5000x256) hz, View.ld_unit_zero (S := S256x64) hz]
  obtain ⟨-, -, -, -, e4, e5⟩ := index_facts t
  funext j
  rw [View.read_apply]
  refine point_entry V c t _ _ ?_ ?_
  · show win1_2.index t (0 : Fin 2) * 5000 + 1 * (j 0).val = t.val * 5000 + (j 0).val
    rw [e4]; omega
  · show win1_2.index t (1 : Fin 2) * 64 + 1 * (j 1).val = (j 1).val
    rw [e5]; omega

/-! ## The blocks tile the result array -/

/-- An entry of the result array lies in point `t`'s block exactly when each of its coordinates lies in the block's
    range on that axis. -/
theorem mem_block (t : Fin cfg1.N) (i : S50000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v48).slice (win1_2.rect t)).set ↔ _
  rw [View.set_slice_whole, Rect.mem_set_unit]
  exact Iff.rfl

/-- Every entry of the result array lies in the block some point writes back: entry `(r, j)` in that of point
    `r / 5000`, one of the ten since `r < 50000`; and every point writes its block back. -/
theorem cover (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have ht : (i 0).val / 5000 < grid1.N := by rw [N_1]; omega
  refine ⟨⟨(i 0).val / 5000, ht⟩, flush1_2 _, ?_⟩
  obtain ⟨-, -, -, -, e4, e5⟩ := index_facts ⟨(i 0).val / 5000, ht⟩
  have e4' : win1_2.index ⟨(i 0).val / 5000, ht⟩ (0 : Fin 2) = (i 0).val / 5000 := e4
  rw [mem_block]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e4']; omega
  | ⟨1, _⟩ =>
    show win1_2.index ⟨(i 0).val / 5000, ht⟩ (1 : Fin 2) * 64 ≤ (i 1).val
      ∧ (i 1).val < win1_2.index ⟨(i 0).val / 5000, ht⟩ (1 : Fin 2) * 64 + 64
    rw [e5]; omega

/-- After the region's last grid point its result array holds the product of its two operand arrays as the region
    found them. -/
theorem arr_out (c : Dev nD) :
    (dat1 (F := Ideal) V c).arrAt 2 cfg1.N = product (V c main_call3_v0) (V c main_call3_v1) :=
  (dat1 (F := Ideal) V c).arrAt_eq_of_cover 2 (product (V c main_call3_v0) (V c main_call3_v1))
    (fun t _ => flushed_eq V c t) cover

end Cert.KernelIdeal.Region1

end
-- ==== Proof.RefProduct.lean ====
/-
  The reference's two matrix products read at an index. On the extended reals `dot_general` with one contracted axis
  is the sum over that axis of products of entries, with no accumulator and whatever the evaluation order; the
  contracted index set of extent K is re-indexed by `Fin K`.
-/
import proofs.«164223_j27659589386355_1_alg».proof.Proof.Gen.ReferenceIdeal
import Idealize.ShloMosaic.Lib.ValueIdx
import Idealize.ShloMosaic.PureOps.Ideal.Laws

noncomputable section

namespace Cert.ReferenceIdeal.Product

open Cert.ReferenceIdeal Cert.ReferenceIdeal.Gen Idealize.ShloMosaic Idealize.ShloMosaic.TcCoe Idealize.SL.Sem

/-! ### The first product of the reference: `S50000x256` from `S50000x512` and `S512x256`, one contracted axis of extent 512 -/

/-- The left operand is read at the result's row … -/
theorem first_lhs_row (i : S50000x256.Idx) (q : dot_S50000x512_S512x256_S50000x256_1_0_0_1_n_n.contr.Idx) :
    (dot_S50000x512_S512x256_S50000x256_1_0_0_1_n_n.lhsIdx i q 0).val = (i 0).val := by
  unfold DotDims.lhsIdx
  rw [dif_neg (show ¬(0 : Fin S50000x512.rank) ∈ dot_S50000x512_S512x256_S50000x256_1_0_0_1_n_n.lhsBatch by decide), dif_pos (show (0 : Fin S50000x512.rank) ∈ dot_S50000x512_S512x256_S50000x256_1_0_0_1_n_n.lhsNonContracting by decide)]
  rfl
/-- … and at the contraction position as its column. -/
theorem first_lhs_col (i : S50000x256.Idx) (q : dot_S50000x512_S512x256_S50000x256_1_0_0_1_n_n.contr.Idx) :
    (dot_S50000x512_S512x256_S50000x256_1_0_0_1_n_n.lhsIdx i q 1).val = (q ⟨0, by decide⟩).val :=
  dot_S50000x512_S512x256_S50000x256_1_0_0_1_n_n.lhsIdx_val_of_single rfl i q
/-- The right operand is read at the contraction position as its row … -/
theorem first_rhs_row (i : S50000x256.Idx) (q : dot_S50000x512_S512x256_S50000x256_1_0_0_1_n_n.contr.Idx) :
    (dot_S50000x512_S512x256_S50000x256_1_0_0_1_n_n.rhsIdx i q 0).val = (q ⟨0, by decide⟩).val :=
  dot_S50000x512_S512x256_S50000x256_1_0_0_1_n_n.rhsIdx_val_of_single rfl i q
/-- … and at the result's column. -/
theorem first_rhs_col (i : S50000x256.Idx) (q : dot_S50000x512_S512x256_S50000x256_1_0_0_1_n_n.contr.Idx) :
    (dot_S50000x512_S512x256_S50000x256_1_0_0_1_n_n.rhsIdx i q 1).val = (i 1).val := by
  unfold DotDims.rhsIdx
  rw [dif_neg (show ¬(1 : Fin S512x256.rank) ∈ dot_S50000x512_S512x256_S50000x256_1_0_0_1_n_n.rhsBatch by decide), dif_pos (show (1 : Fin S512x256.rank) ∈ dot_S50000x512_S512x256_S50000x256_1_0_0_1_n_n.rhsNonContracting by decide)]
  rfl

/-- Row of `i`, column `k` of the left operand. -/
abbrev first_lrow (i : S50000x256.Idx) (k : Fin 512) : S50000x512.Idx := fun a => match a with
  | ⟨0, _⟩ => ⟨(i 0).val, (i 0).isLt⟩
  | ⟨1, _⟩ => ⟨k.val, k.isLt⟩
/-- Row `k`, column of `i` of the right operand. -/
abbrev first_rcol (i : S50000x256.Idx) (k : Fin 512) : S512x256.Idx := fun a => match a with
  | ⟨0, _⟩ => ⟨k.val, k.isLt⟩
  | ⟨1, _⟩ => ⟨(i 1).val, (i 1).isLt⟩

/-- Over the extended reals the host's product is the plain sum: entry `i` is the sum over `k` of the left operand's
    (row of `i`, `k`) entry times the right operand's (`k`, column of `i`) entry. -/
theorem first_apply (x : FVec Ideal S50000x512 .f32) (w : FVec Ideal S512x256 .f32) (i : S50000x256.Idx) :
    Host.dotGeneral (F := Ideal) (φ₁ := .f32) (φ₂ := .f32) dot_S50000x512_S512x256_S50000x256_1_0_0_1_n_n none x w i = ∑ k : Fin 512, x (first_lrow i k) * w (first_rcol i k) := by
  simp only [Host.dotGeneral]
  rw [Ideal.dotGeneral_apply, ← Equiv.sum_comp (ValueIdx.contrEquiv1 dot_S50000x512_S512x256_S50000x256_1_0_0_1_n_n 512 rfl rfl).symm]
  refine Finset.sum_congr rfl fun k _ => ?_
  have hk := ValueIdx.contrEquiv1_symm_val dot_S50000x512_S512x256_S50000x256_1_0_0_1_n_n 512 rfl rfl k
  have el : dot_S50000x512_S512x256_S50000x256_1_0_0_1_n_n.lhsIdx i ((ValueIdx.contrEquiv1 dot_S50000x512_S512x256_S50000x256_1_0_0_1_n_n 512 rfl rfl).symm k) = first_lrow i k := funext fun a => Fin.ext (by
    match a with
    | ⟨0, _⟩ => exact first_lhs_row _ _
    | ⟨1, _⟩ => exact (first_lhs_col _ _).trans hk)
  have er : dot_S50000x512_S512x256_S50000x256_1_0_0_1_n_n.rhsIdx i ((ValueIdx.contrEquiv1 dot_S50000x512_S512x256_S50000x256_1_0_0_1_n_n 512 rfl rfl).symm k) = first_rcol i k := funext fun a => Fin.ext (by
    match a with
    | ⟨0, _⟩ => exact (first_rhs_row _ _).trans hk
    | ⟨1, _⟩ => exact first_rhs_col _ _)
  rw [el, er]

/-! ### The second product of the reference: `S50000x64` from `S50000x256` and `S256x64`, one contracted axis of extent 256 -/

/-- The left operand is read at the result's row … -/
theorem second_lhs_row (i : S50000x64.Idx) (q : dot_S50000x256_S256x64_S50000x64_1_0_0_1_n_n.contr.Idx) :
    (dot_S50000x256_S256x64_S50000x64_1_0_0_1_n_n.lhsIdx i q 0).val = (i 0).val := by
  unfold DotDims.lhsIdx
  rw [dif_neg (show ¬(0 : Fin S50000x256.rank) ∈ dot_S50000x256_S256x64_S50000x64_1_0_0_1_n_n.lhsBatch by decide), dif_pos (show (0 : Fin S50000x256.rank) ∈ dot_S50000x256_S256x64_S50000x64_1_0_0_1_n_n.lhsNonContracting by decide)]
  rfl
/-- … and at the contraction position as its column. -/
theorem second_lhs_col (i : S50000x64.Idx) (q : dot_S50000x256_S256x64_S50000x64_1_0_0_1_n_n.contr.Idx) :
    (dot_S50000x256_S256x64_S50000x64_1_0_0_1_n_n.lhsIdx i q 1).val = (q ⟨0, by decide⟩).val :=
  dot_S50000x256_S256x64_S50000x64_1_0_0_1_n_n.lhsIdx_val_of_single rfl i q
/-- The right operand is read at the contraction position as its row … -/
theorem second_rhs_row (i : S50000x64.Idx) (q : dot_S50000x256_S256x64_S50000x64_1_0_0_1_n_n.contr.Idx) :
    (dot_S50000x256_S256x64_S50000x64_1_0_0_1_n_n.rhsIdx i q 0).val = (q ⟨0, by decide⟩).val :=
  dot_S50000x256_S256x64_S50000x64_1_0_0_1_n_n.rhsIdx_val_of_single rfl i q
/-- … and at the result's column. -/
theorem second_rhs_col (i : S50000x64.Idx) (q : dot_S50000x256_S256x64_S50000x64_1_0_0_1_n_n.contr.Idx) :
    (dot_S50000x256_S256x64_S50000x64_1_0_0_1_n_n.rhsIdx i q 1).val = (i 1).val := by
  unfold DotDims.rhsIdx
  rw [dif_neg (show ¬(1 : Fin S256x64.rank) ∈ dot_S50000x256_S256x64_S50000x64_1_0_0_1_n_n.rhsBatch by decide), dif_pos (show (1 : Fin S256x64.rank) ∈ dot_S50000x256_S256x64_S50000x64_1_0_0_1_n_n.rhsNonContracting by decide)]
  rfl

/-- Row of `i`, column `k` of the left operand. -/
abbrev second_lrow (i : S50000x64.Idx) (k : Fin 256) : S50000x256.Idx := fun a => match a with
  | ⟨0, _⟩ => ⟨(i 0).val, (i 0).isLt⟩
  | ⟨1, _⟩ => ⟨k.val, k.isLt⟩
/-- Row `k`, column of `i` of the right operand. -/
abbrev second_rcol (i : S50000x64.Idx) (k : Fin 256) : S256x64.Idx := fun a => match a with
  | ⟨0, _⟩ => ⟨k.val, k.isLt⟩
  | ⟨1, _⟩ => ⟨(i 1).val, (i 1).isLt⟩

/-- Over the extended reals the host's product is the plain sum: entry `i` is the sum over `k` of the left operand's
    (row of `i`, `k`) entry times the right operand's (`k`, column of `i`) entry. -/
theorem second_apply (x : FVec Ideal S50000x256 .f32) (w : FVec Ideal S256x64 .f32) (i : S50000x64.Idx) :
    Host.dotGeneral (F := Ideal) (φ₁ := .f32) (φ₂ := .f32) dot_S50000x256_S256x64_S50000x64_1_0_0_1_n_n none x w i = ∑ k : Fin 256, x (second_lrow i k) * w (second_rcol i k) := by
  simp only [Host.dotGeneral]
  rw [Ideal.dotGeneral_apply, ← Equiv.sum_comp (ValueIdx.contrEquiv1 dot_S50000x256_S256x64_S50000x64_1_0_0_1_n_n 256 rfl rfl).symm]
  refine Finset.sum_congr rfl fun k _ => ?_
  have hk := ValueIdx.contrEquiv1_symm_val dot_S50000x256_S256x64_S50000x64_1_0_0_1_n_n 256 rfl rfl k
  have el : dot_S50000x256_S256x64_S50000x64_1_0_0_1_n_n.lhsIdx i ((ValueIdx.contrEquiv1 dot_S50000x256_S256x64_S50000x64_1_0_0_1_n_n 256 rfl rfl).symm k) = second_lrow i k := funext fun a => Fin.ext (by
    match a with
    | ⟨0, _⟩ => exact second_lhs_row _ _
    | ⟨1, _⟩ => exact (second_lhs_col _ _).trans hk)
  have er : dot_S50000x256_S256x64_S50000x64_1_0_0_1_n_n.rhsIdx i ((ValueIdx.contrEquiv1 dot_S50000x256_S256x64_S50000x64_1_0_0_1_n_n 256 rfl rfl).symm k) = second_rcol i k := funext fun a => Fin.ext (by
    match a with
    | ⟨0, _⟩ => exact (second_rhs_row _ _).trans hk
    | ⟨1, _⟩ => exact second_rhs_col _ _)
  rw [el, er]

end Cert.ReferenceIdeal.Product

end
-- ==== Proof.StageNorm.lean ====
/-
  The host stretches of the kernel program against the reference's operations, stretch by stretch.

  After their first seven operations (which build the source and destination vectors) the two programs apply the same
  host operations with the same literals, apart from the two dense products. Each statement takes ANY contents of the
  kernel program's buffers (`VK`) and ANY contents of the reference's (`VR`) that agree on what a stretch reads, and
  says that the stretch leaves in its last buffer what the matching initial segment of the reference's operations leaves
  in the matching buffer. Nothing here depends on the float family.
  Here: the edge normalisation.
-/
import proofs.«164223_j27659589386355_1_alg».proof.Proof.Gen.KernelIdeal.Launch
import proofs.«164223_j27659589386355_1_alg».proof.Proof.RefRun
import Idealize.ShloMosaic.Lib.StableHlo.Run

set_option maxRecDepth 16384

noncomputable section

open Idealize.ShloMosaic Idealize.ShloMosaic.TcCoe Idealize.SL.Sem Idealize.ShloMosaic.StableHlo

namespace Cert.Stages

variable {F : FTy → Type} [FloatOps F]

/-- The reference's operations after its first seven. -/
abbrev refTail : List (HloOp Cert.ReferenceIdeal.τ Cert.ReferenceIdeal.sig (Elt F)) := (Cert.ReferenceIdeal.Run.ops (F := F)).drop 7

variable (VK : Valuation Cert.KernelIdeal.τ Cert.KernelIdeal.sig (Elt F)) (VR : Valuation Cert.ReferenceIdeal.τ Cert.ReferenceIdeal.sig (Elt F))

set_option maxHeartbeats 2000000 in
/-- The edge normalisation: from the two index vectors the kernel program's stretch (degrees by a scatter-add of ones
    over the destinations, their inverse square roots where positive, the product of the two gathered factors per edge)
    leaves what the reference's first 35 later operations leave. -/
theorem norm_agrees
    (h3 : VK (Proc.devRef .tc Cert.KernelIdeal.main_v3) = VR (Proc.devRef .tc Cert.ReferenceIdeal.main_v3)) (h6 : VK (Proc.devRef .tc Cert.KernelIdeal.main_v6) = VR (Proc.devRef .tc Cert.ReferenceIdeal.main_v6)) :
    StableHlo.after Cert.KernelIdeal.Gen.hostOps0_2 (StableHlo.after Cert.KernelIdeal.Gen.hostOps0_1 (StableHlo.after ((Cert.KernelIdeal.Gen.hostOps0 (F := F)).drop 7) VK)) (Proc.devRef .tc Cert.KernelIdeal.main_v30)
      = StableHlo.after ((refTail (F := F)).take 35) VR (Proc.devRef .tc Cert.ReferenceIdeal.main_v31) := by
  simp only [Cert.KernelIdeal.Gen.hostOps0, Cert.KernelIdeal.Gen.hostOps0_1, Cert.KernelIdeal.Gen.hostOps0_2, Cert.KernelIdeal.Gen.hostOps0_3, Cert.KernelIdeal.Gen.hostOps1, Cert.KernelIdeal.Gen.hostOps1_1, Cert.KernelIdeal.Gen.hostOps1_2, Cert.KernelIdeal.Gen.hostOps2, Cert.KernelIdeal.Gen.hostOps2_1, Cert.ReferenceIdeal.Run.ops, refTail, List.drop_succ_cons, List.drop_zero, List.take_succ_cons, List.take_zero]
  after_results_simp
  try simp only [TRef.ofBuf, TRef.toBuf, cast_eq]
  rw [h3, h6]
  rfl

end Cert.Stages

end
-- ==== Proof.StageNormAgain.lean ====
/-
  The host stretches of the kernel program against the reference's operations, stretch by stretch.

  After their first seven operations (which build the source and destination vectors) the two programs apply the same
  host operations with the same literals, apart from the two dense products. Each statement takes ANY contents of the
  kernel program's buffers (`VK`) and ANY contents of the reference's (`VR`) that agree on what a stretch reads, and
  says that the stretch leaves in its last buffer what the matching initial segment of the reference's operations leaves
  in the matching buffer. Nothing here depends on the float family.
  Here: the reference's second computation of the edge normalisation, and its first product.
-/
import proofs.«164223_j27659589386355_1_alg».proof.Proof.StageNorm
import Idealize.ShloMosaic.Lib.StableHlo.Run

set_option maxRecDepth 16384

noncomputable section

open Idealize.ShloMosaic Idealize.ShloMosaic.TcCoe Idealize.SL.Sem Idealize.ShloMosaic.StableHlo

namespace Cert.Stages

variable {F : FTy → Type} [FloatOps F]

variable (VK : Valuation Cert.KernelIdeal.τ Cert.KernelIdeal.sig (Elt F)) (VR : Valuation Cert.ReferenceIdeal.τ Cert.ReferenceIdeal.sig (Elt F))

set_option maxHeartbeats 2000000 in
/-- The reference computes the same edge normalisation a second time, for its second layer. -/
theorem norm_again :
    StableHlo.after ((refTail (F := F)).take 77) VR (Proc.devRef .tc Cert.ReferenceIdeal.main_v64)
      = StableHlo.after ((refTail (F := F)).take 35) VR (Proc.devRef .tc Cert.ReferenceIdeal.main_v31) := by
  simp only [Cert.KernelIdeal.Gen.hostOps0, Cert.KernelIdeal.Gen.hostOps0_1, Cert.KernelIdeal.Gen.hostOps0_2, Cert.KernelIdeal.Gen.hostOps0_3, Cert.KernelIdeal.Gen.hostOps1, Cert.KernelIdeal.Gen.hostOps1_1, Cert.KernelIdeal.Gen.hostOps1_2, Cert.KernelIdeal.Gen.hostOps2, Cert.KernelIdeal.Gen.hostOps2_1, Cert.ReferenceIdeal.Run.ops, refTail, List.drop_succ_cons, List.drop_zero, List.take_succ_cons, List.take_zero]
  after_results_simp
  try simp only [TRef.ofBuf, TRef.toBuf, cast_eq]

set_option maxHeartbeats 2000000 in
/-- The reference's first product is `dot_general` of the first and third arguments. -/
theorem first_dot :
    StableHlo.after ((refTail (F := F)).take 15) VR (Proc.devRef .tc Cert.ReferenceIdeal.main_v15)
      = Host.dotGeneral Cert.ReferenceIdeal.dot_S50000x512_S512x256_S50000x256_1_0_0_1_n_n none (VR (Proc.devRef .tc Cert.ReferenceIdeal.main_arg0)) (VR (Proc.devRef .tc Cert.ReferenceIdeal.main_arg2)) := by
  simp only [Cert.KernelIdeal.Gen.hostOps0, Cert.KernelIdeal.Gen.hostOps0_1, Cert.KernelIdeal.Gen.hostOps0_2, Cert.KernelIdeal.Gen.hostOps0_3, Cert.KernelIdeal.Gen.hostOps1, Cert.KernelIdeal.Gen.hostOps1_1, Cert.KernelIdeal.Gen.hostOps1_2, Cert.KernelIdeal.Gen.hostOps2, Cert.KernelIdeal.Gen.hostOps2_1, Cert.ReferenceIdeal.Run.ops, refTail, List.drop_succ_cons, List.drop_zero, List.take_succ_cons, List.take_zero]
  after_results_simp

end Cert.Stages

end
-- ==== Proof.StageLayer1.lean ====
/-
  The host stretches of the kernel program against the reference's operations, stretch by stretch.

  After their first seven operations (which build the source and destination vectors) the two programs apply the same
  host operations with the same literals, apart from the two dense products. Each statement takes ANY contents of the
  kernel program's buffers (`VK`) and ANY contents of the reference's (`VR`) that agree on what a stretch reads, and
  says that the stretch leaves in its last buffer what the matching initial segment of the reference's operations leaves
  in the matching buffer. Nothing here depends on the float family.
  Here: the first layer after its product.
-/
import proofs.«164223_j27659589386355_1_alg».proof.Proof.StageNorm
import Idealize.ShloMosaic.Lib.StableHlo.Run

set_option maxRecDepth 16384

noncomputable section

open Idealize.ShloMosaic Idealize.ShloMosaic.TcCoe Idealize.SL.Sem Idealize.ShloMosaic.StableHlo

namespace Cert.Stages

variable {F : FTy → Type} [FloatOps F]

variable (VK : Valuation Cert.KernelIdeal.τ Cert.KernelIdeal.sig (Elt F)) (VR : Valuation Cert.ReferenceIdeal.τ Cert.ReferenceIdeal.sig (Elt F))

set_option maxHeartbeats 4000000 in
/-- The first layer after its product: gather the product's rows by source, scale by the edge normalisation, add them up
    by destination, add the bias, clamp below at zero. Given the product, the index vectors, the normalisation and the
    bias, the kernel program's stretch leaves what the reference's first 56 later operations leave. -/
theorem layer1_agrees
    (hp : VK (Proc.devRef .tc Cert.KernelIdeal.main_v31) = StableHlo.after ((refTail (F := F)).take 15) VR (Proc.devRef .tc Cert.ReferenceIdeal.main_v15))
    (h3 : VK (Proc.devRef .tc Cert.KernelIdeal.main_v3) = VR (Proc.devRef .tc Cert.ReferenceIdeal.main_v3)) (h6 : VK (Proc.devRef .tc Cert.KernelIdeal.main_v6) = VR (Proc.devRef .tc Cert.ReferenceIdeal.main_v6))
    (hn : VK (Proc.devRef .tc Cert.KernelIdeal.main_v30) = StableHlo.after ((refTail (F := F)).take 35) VR (Proc.devRef .tc Cert.ReferenceIdeal.main_v31))
    (hb : VK (Proc.devRef .tc Cert.KernelIdeal.main_arg3) = VR (Proc.devRef .tc Cert.ReferenceIdeal.main_arg3)) :
    StableHlo.after Cert.KernelIdeal.Gen.hostOps1_1 (StableHlo.after Cert.KernelIdeal.Gen.hostOps1 VK) (Proc.devRef .tc Cert.KernelIdeal.main_v47)
      = StableHlo.after ((refTail (F := F)).take 56) VR (Proc.devRef .tc Cert.ReferenceIdeal.main_v47) := by
  simp only [Cert.KernelIdeal.Gen.hostOps1_1, Cert.KernelIdeal.Gen.hostOps1]
  after_results_simp
  rw [hp, h3, h6, hn, hb]
  simp only [Cert.KernelIdeal.Gen.hostOps0, Cert.KernelIdeal.Gen.hostOps0_1, Cert.KernelIdeal.Gen.hostOps0_2, Cert.KernelIdeal.Gen.hostOps0_3, Cert.KernelIdeal.Gen.hostOps1, Cert.KernelIdeal.Gen.hostOps1_1, Cert.KernelIdeal.Gen.hostOps1_2, Cert.KernelIdeal.Gen.hostOps2, Cert.KernelIdeal.Gen.hostOps2_1, Cert.ReferenceIdeal.Run.ops, refTail, List.drop_succ_cons, List.drop_zero, List.take_succ_cons, List.take_zero]
  after_results_simp
  try simp only [TRef.ofBuf, TRef.toBuf, cast_eq]
  all_goals rfl

end Cert.Stages

end
-- ==== Proof.StageSplit.lean ====
/-
  Folding a list of host operations over buffer contents splits at any point: the operations after the cut are applied to
  what the operations before it leave.
-/
import Idealize.ShloMosaic.Lib.StableHlo.Run
import Idealize.ShloMosaic.Lib.Pipeline.Frame

noncomputable section

open Idealize.ShloMosaic Idealize.ShloMosaic.StableHlo

namespace Cert.Stages

variable {τ : Topo} {sig : RefSig} {Val : EltTy → Type}

/-- All the operations at once, or the first `n` and then the rest. -/
theorem after_split (n : Nat) (l : List (HloOp τ sig Val)) (V : Valuation τ sig Val) :
    StableHlo.after l V = StableHlo.after (l.drop n) (StableHlo.after (l.take n) V) := by
  rw [← StableHlo.after_append, List.take_append_drop]

/-- The first `m + n` operations, or the first `m` and then the next `n`. -/
theorem after_take_add (m n : Nat) (l : List (HloOp τ sig Val)) (V : Valuation τ sig Val) :
    StableHlo.after (l.take (m + n)) V = StableHlo.after ((l.drop m).take n) (StableHlo.after (l.take m) V) := by
  rw [List.take_add, StableHlo.after_append]

end Cert.Stages

end
-- ==== Proof.StageRefKeeps.lean ====
/-
  The host stretches of the kernel program against the reference's operations, stretch by stretch.

  After their first seven operations (which build the source and destination vectors) the two programs apply the same
  host operations with the same literals, apart from the two dense products. Each statement takes ANY contents of the
  kernel program's buffers (`VK`) and ANY contents of the reference's (`VR`) that agree on what a stretch reads, and
  says that the stretch leaves in its last buffer what the matching initial segment of the reference's operations leaves
  in the matching buffer. Nothing here depends on the float family.
  Here: buffers the reference's first 56 or 57 later operations do not write.
-/
import proofs.«164223_j27659589386355_1_alg».proof.Proof.StageNorm
import Idealize.ShloMosaic.Lib.StableHlo.Run

set_option maxRecDepth 16384

noncomputable section

open Idealize.ShloMosaic Idealize.ShloMosaic.TcCoe Idealize.SL.Sem Idealize.ShloMosaic.StableHlo

namespace Cert.Stages

variable {F : FTy → Type} [FloatOps F]

variable (VR : Valuation Cert.ReferenceIdeal.τ Cert.ReferenceIdeal.sig (Elt F))

/-- The reference's first 56 later operations do not write `main_arg4`. -/
theorem ref56_keeps_main_arg4 : StableHlo.after ((refTail (F := F)).take 56) VR (Proc.devRef .tc Cert.ReferenceIdeal.main_arg4) = VR (Proc.devRef .tc Cert.ReferenceIdeal.main_arg4) := by
  simp only [Cert.KernelIdeal.Gen.hostOps0, Cert.KernelIdeal.Gen.hostOps0_1, Cert.KernelIdeal.Gen.hostOps0_2, Cert.KernelIdeal.Gen.hostOps0_3, Cert.KernelIdeal.Gen.hostOps1, Cert.KernelIdeal.Gen.hostOps1_1, Cert.KernelIdeal.Gen.hostOps1_2, Cert.KernelIdeal.Gen.hostOps2, Cert.KernelIdeal.Gen.hostOps2_1, Cert.ReferenceIdeal.Run.ops, refTail, List.drop_succ_cons, List.drop_zero, List.take_succ_cons, List.take_zero]
  after_results_simp

/-- The reference's first 57 later operations do not write `main_v3`. -/
theorem ref57_keeps_main_v3 : StableHlo.after ((refTail (F := F)).take 57) VR (Proc.devRef .tc Cert.ReferenceIdeal.main_v3) = VR (Proc.devRef .tc Cert.ReferenceIdeal.main_v3) := by
  simp only [Cert.KernelIdeal.Gen.hostOps0, Cert.KernelIdeal.Gen.hostOps0_1, Cert.KernelIdeal.Gen.hostOps0_2, Cert.KernelIdeal.Gen.hostOps0_3, Cert.KernelIdeal.Gen.hostOps1, Cert.KernelIdeal.Gen.hostOps1_1, Cert.KernelIdeal.Gen.hostOps1_2, Cert.KernelIdeal.Gen.hostOps2, Cert.KernelIdeal.Gen.hostOps2_1, Cert.ReferenceIdeal.Run.ops, refTail, List.drop_succ_cons, List.drop_zero, List.take_succ_cons, List.take_zero]
  after_results_simp

/-- The reference's first 57 later operations do not write `main_v6`. -/
theorem ref57_keeps_main_v6 : StableHlo.after ((refTail (F := F)).take 57) VR (Proc.devRef .tc Cert.ReferenceIdeal.main_v6) = VR (Proc.devRef .tc Cert.ReferenceIdeal.main_v6) := by
  simp only [Cert.KernelIdeal.Gen.hostOps0, Cert.KernelIdeal.Gen.hostOps0_1, Cert.KernelIdeal.Gen.hostOps0_2, Cert.KernelIdeal.Gen.hostOps0_3, Cert.KernelIdeal.Gen.hostOps1, Cert.KernelIdeal.Gen.hostOps1_1, Cert.KernelIdeal.Gen.hostOps1_2, Cert.KernelIdeal.Gen.hostOps2, Cert.KernelIdeal.Gen.hostOps2_1, Cert.ReferenceIdeal.Run.ops, refTail, List.drop_succ_cons, List.drop_zero, List.take_succ_cons, List.take_zero]
  after_results_simp

/-- The reference's first 57 later operations do not write `main_arg5`. -/
theorem ref57_keeps_main_arg5 : StableHlo.after ((refTail (F := F)).take 57) VR (Proc.devRef .tc Cert.ReferenceIdeal.main_arg5) = VR (Proc.devRef .tc Cert.ReferenceIdeal.main_arg5) := by
  simp only [Cert.KernelIdeal.Gen.hostOps0, Cert.KernelIdeal.Gen.hostOps0_1, Cert.KernelIdeal.Gen.hostOps0_2, Cert.KernelIdeal.Gen.hostOps0_3, Cert.KernelIdeal.Gen.hostOps1, Cert.KernelIdeal.Gen.hostOps1_1, Cert.KernelIdeal.Gen.hostOps1_2, Cert.KernelIdeal.Gen.hostOps2, Cert.KernelIdeal.Gen.hostOps2_1, Cert.ReferenceIdeal.Run.ops, refTail, List.drop_succ_cons, List.drop_zero, List.take_succ_cons, List.take_zero]
  after_results_simp

end Cert.Stages

end
-- ==== Proof.StageSecondDot.lean ====
/-
  The host stretches of the kernel program against the reference's operations, stretch by stretch.

  After their first seven operations (which build the source and destination vectors) the two programs apply the same
  host operations with the same literals, apart from the two dense products. Each statement takes ANY contents of the
  kernel program's buffers (`VK`) and ANY contents of the reference's (`VR`) that agree on what a stretch reads, and
  says that the stretch leaves in its last buffer what the matching initial segment of the reference's operations leaves
  in the matching buffer. Nothing here depends on the float family.
  Here: the reference's second product.
-/
import proofs.«164223_j27659589386355_1_alg».proof.Proof.StageNorm
import proofs.«164223_j27659589386355_1_alg».proof.Proof.StageSplit
import proofs.«164223_j27659589386355_1_alg».proof.Proof.StageRefKeeps
import Idealize.ShloMosaic.Lib.StableHlo.Run

set_option maxRecDepth 16384

noncomputable section

open Idealize.ShloMosaic Idealize.ShloMosaic.TcCoe Idealize.SL.Sem Idealize.ShloMosaic.StableHlo

namespace Cert.Stages

variable {F : FTy → Type} [FloatOps F]

variable (VR : Valuation Cert.ReferenceIdeal.τ Cert.ReferenceIdeal.sig (Elt F))

set_option maxHeartbeats 2000000 in
/-- The reference's second product is `dot_general` of the first layer's output and the fifth argument: the 57th later
    operation applied to what the first 56 leave. -/
theorem second_dot :
    StableHlo.after ((refTail (F := F)).take 57) VR (Proc.devRef .tc Cert.ReferenceIdeal.main_v48)
      = Host.dotGeneral Cert.ReferenceIdeal.dot_S50000x256_S256x64_S50000x64_1_0_0_1_n_n none
          (StableHlo.after ((refTail (F := F)).take 56) VR (Proc.devRef .tc Cert.ReferenceIdeal.main_v47)) (VR (Proc.devRef .tc Cert.ReferenceIdeal.main_arg4)) := by
  have hk := ref56_keeps_main_arg4 VR
  rw [after_take_add 56 1]
  generalize StableHlo.after ((refTail (F := F)).take 56) VR = V57 at hk ⊢
  simp only [Cert.KernelIdeal.Gen.hostOps0, Cert.KernelIdeal.Gen.hostOps0_1, Cert.KernelIdeal.Gen.hostOps0_2, Cert.KernelIdeal.Gen.hostOps0_3, Cert.KernelIdeal.Gen.hostOps1, Cert.KernelIdeal.Gen.hostOps1_1, Cert.KernelIdeal.Gen.hostOps1_2, Cert.KernelIdeal.Gen.hostOps2, Cert.KernelIdeal.Gen.hostOps2_1, Cert.ReferenceIdeal.Run.ops, refTail, List.drop_succ_cons, List.drop_zero, List.take_succ_cons, List.take_zero]
  after_results_simp
  rw [hk]

end Cert.Stages

end
-- ==== Proof.StageAggregate2.lean ====
/-
  The host stretches of the kernel program against the reference's operations, stretch by stretch.

  After their first seven operations (which build the source and destination vectors) the two programs apply the same
  host operations with the same literals, apart from the two dense products. Each statement takes ANY contents of the
  kernel program's buffers (`VK`) and ANY contents of the reference's (`VR`) that agree on what a stretch reads, and
  says that the stretch leaves in its last buffer what the matching initial segment of the reference's operations leaves
  in the matching buffer. Nothing here depends on the float family.
  Here: the second layer after its product, up to the bias, read over the reference's buffers as its first 57 later
  operations leave them.
-/
import proofs.«164223_j27659589386355_1_alg».proof.Proof.StageNorm
import Idealize.ShloMosaic.Lib.StableHlo.Run

set_option maxRecDepth 16384

noncomputable section

open Idealize.ShloMosaic Idealize.ShloMosaic.TcCoe Idealize.SL.Sem Idealize.ShloMosaic.StableHlo

namespace Cert.Stages

variable {F : FTy → Type} [FloatOps F]

variable (VK : Valuation Cert.KernelIdeal.τ Cert.KernelIdeal.sig (Elt F))

set_option maxHeartbeats 4000000 in
/-- The second layer after its product: gather the product's rows by source, scale by the edge normalisation, add them up
    by destination, add the bias. Over ANY contents `VR'` of the reference's buffers (standing for what its first 57
    later operations leave): given the product, the index vectors, the edge normalisation as the reference recomputes it
    there, and the bias, the kernel program's stretch leaves what the reference's next 38 operations leave. -/
theorem aggregate2_agrees (VR' : Valuation Cert.ReferenceIdeal.τ Cert.ReferenceIdeal.sig (Elt F))
    (hp : VK (Proc.devRef .tc Cert.KernelIdeal.main_v48) = VR' (Proc.devRef .tc Cert.ReferenceIdeal.main_v48))
    (h3 : VK (Proc.devRef .tc Cert.KernelIdeal.main_v3) = VR' (Proc.devRef .tc Cert.ReferenceIdeal.main_v3)) (h6 : VK (Proc.devRef .tc Cert.KernelIdeal.main_v6) = VR' (Proc.devRef .tc Cert.ReferenceIdeal.main_v6))
    (hn : VK (Proc.devRef .tc Cert.KernelIdeal.main_v30) = StableHlo.after (((refTail (F := F)).drop 57).take 20) VR' (Proc.devRef .tc Cert.ReferenceIdeal.main_v64))
    (hb : VK (Proc.devRef .tc Cert.KernelIdeal.main_arg5) = VR' (Proc.devRef .tc Cert.ReferenceIdeal.main_arg5)) :
    StableHlo.after Cert.KernelIdeal.Gen.hostOps2 VK (Proc.devRef .tc Cert.KernelIdeal.main_v63)
      = StableHlo.after (((refTail (F := F)).drop 57).take 38) VR' (Proc.devRef .tc Cert.ReferenceIdeal.main_v79) := by
  simp only [Cert.KernelIdeal.Gen.hostOps2]
  after_results_simp
  rw [hp, h3, h6, hn, hb]
  simp only [Cert.KernelIdeal.Gen.hostOps0, Cert.KernelIdeal.Gen.hostOps0_1, Cert.KernelIdeal.Gen.hostOps0_2, Cert.KernelIdeal.Gen.hostOps0_3, Cert.KernelIdeal.Gen.hostOps1, Cert.KernelIdeal.Gen.hostOps1_1, Cert.KernelIdeal.Gen.hostOps1_2, Cert.KernelIdeal.Gen.hostOps2, Cert.KernelIdeal.Gen.hostOps2_1, Cert.ReferenceIdeal.Run.ops, refTail, List.drop_succ_cons, List.drop_zero, List.take_succ_cons, List.take_zero]
  after_results_simp
  try simp only [TRef.ofBuf, TRef.toBuf, cast_eq]
  all_goals rfl

end Cert.Stages

end
-- ==== Proof.StageSoftmax.lean ====
/-
  The host stretches of the kernel program against the reference's operations, stretch by stretch.

  After their first seven operations (which build the source and destination vectors) the two programs apply the same
  host operations with the same literals, apart from the two dense products. Each statement takes ANY contents of the
  kernel program's buffers (`VK`) and ANY contents of the reference's (`VR`) that agree on what a stretch reads, and
  says that the stretch leaves in its last buffer what the matching initial segment of the reference's operations leaves
  in the matching buffer. Nothing here depends on the float family.
  Here: the final row-wise log-softmax.
-/
import proofs.«164223_j27659589386355_1_alg».proof.Proof.StageNorm
import Idealize.ShloMosaic.Lib.StableHlo.Run

set_option maxRecDepth 16384

noncomputable section

open Idealize.ShloMosaic Idealize.ShloMosaic.TcCoe Idealize.SL.Sem Idealize.ShloMosaic.StableHlo

namespace Cert.Stages

variable {F : FTy → Type} [FloatOps F]

variable (VK : Valuation Cert.KernelIdeal.τ Cert.KernelIdeal.sig (Elt F))

set_option maxHeartbeats 4000000 in
/-- The row-wise log-softmax (subtract the row maximum, then the logarithm of the row's sum of exponentials): over ANY
    contents of the two programs' buffers that agree on its input, the kernel program's last stretch leaves what the
    reference's last fifteen operations leave in its result buffer. -/
theorem softmax_agrees (VR'' : Valuation Cert.ReferenceIdeal.τ Cert.ReferenceIdeal.sig (Elt F))
    (hz : VK (Proc.devRef .tc Cert.KernelIdeal.main_v63) = VR'' (Proc.devRef .tc Cert.ReferenceIdeal.main_v79)) :
    StableHlo.after Cert.KernelIdeal.Gen.hostOps2_1 VK (Proc.devRef .tc Cert.KernelIdeal.main_v64)
      = StableHlo.after (((refTail (F := F)).drop 57).drop 38) VR'' (Proc.devRef .tc Cert.ReferenceIdeal.main_v80) := by
  simp only [Cert.KernelIdeal.Gen.hostOps2_1]
  after_results_simp
  rw [hz]
  simp only [Cert.KernelIdeal.Gen.hostOps0, Cert.KernelIdeal.Gen.hostOps0_1, Cert.KernelIdeal.Gen.hostOps0_2, Cert.KernelIdeal.Gen.hostOps0_3, Cert.KernelIdeal.Gen.hostOps1, Cert.KernelIdeal.Gen.hostOps1_1, Cert.KernelIdeal.Gen.hostOps1_2, Cert.KernelIdeal.Gen.hostOps2, Cert.KernelIdeal.Gen.hostOps2_1, Cert.ReferenceIdeal.Run.ops, refTail, List.drop_succ_cons, List.drop_zero, List.take_succ_cons, List.take_zero]
  after_results_simp
  try simp only [TRef.ofBuf, TRef.toBuf, cast_eq]
  all_goals rfl

end Cert.Stages

end
-- ==== Proof.StageCarry.lean ====
/-
  The kernel program's host stretches leave alone what they do not write: the index vectors, the edge normalisation and
  the arguments pass through them unchanged, and the two short stretches before the regions only narrow the regions'
  operands to bf16. Stated for any contents `VK` of the buffers and any float family.
-/
import proofs.«164223_j27659589386355_1_alg».proof.Proof.Gen.KernelIdeal.Launch
import Idealize.ShloMosaic.Lib.StableHlo.Run

set_option maxRecDepth 16384

noncomputable section

open Idealize.ShloMosaic Idealize.ShloMosaic.TcCoe Idealize.SL.Sem Idealize.ShloMosaic.StableHlo

namespace Cert.Stages

variable {F : FTy → Type} [FloatOps F]

variable (VK : Valuation Cert.KernelIdeal.τ Cert.KernelIdeal.sig (Elt F))

/-- The stretch before the first region's casts (after the first seven operations): it does not write `main_v3`. -/
theorem pre_keeps_main_v3 : StableHlo.after Cert.KernelIdeal.Gen.hostOps0_2 (StableHlo.after Cert.KernelIdeal.Gen.hostOps0_1 (StableHlo.after ((Cert.KernelIdeal.Gen.hostOps0 (F := F)).drop 7) VK)) (Proc.devRef .tc Cert.KernelIdeal.main_v3) = VK (Proc.devRef .tc Cert.KernelIdeal.main_v3) := by
  simp only [Cert.KernelIdeal.Gen.hostOps0_2, Cert.KernelIdeal.Gen.hostOps0_1, Cert.KernelIdeal.Gen.hostOps0, List.drop_succ_cons, List.drop_zero]
  after_results_simp

/-- The stretch before the first region's casts (after the first seven operations): it does not write `main_v6`. -/
theorem pre_keeps_main_v6 : StableHlo.after Cert.KernelIdeal.Gen.hostOps0_2 (StableHlo.after Cert.KernelIdeal.Gen.hostOps0_1 (StableHlo.after ((Cert.KernelIdeal.Gen.hostOps0 (F := F)).drop 7) VK)) (Proc.devRef .tc Cert.KernelIdeal.main_v6) = VK (Proc.devRef .tc Cert.KernelIdeal.main_v6) := by
  simp only [Cert.KernelIdeal.Gen.hostOps0_2, Cert.KernelIdeal.Gen.hostOps0_1, Cert.KernelIdeal.Gen.hostOps0, List.drop_succ_cons, List.drop_zero]
  after_results_simp

/-- The stretch before the first region's casts (after the first seven operations): it does not write `main_arg0`. -/
theorem pre_keeps_main_arg0 : StableHlo.after Cert.KernelIdeal.Gen.hostOps0_2 (StableHlo.after Cert.KernelIdeal.Gen.hostOps0_1 (StableHlo.after ((Cert.KernelIdeal.Gen.hostOps0 (F := F)).drop 7) VK)) (Proc.devRef .tc Cert.KernelIdeal.main_arg0) = VK (Proc.devRef .tc Cert.KernelIdeal.main_arg0) := by
  simp only [Cert.KernelIdeal.Gen.hostOps0_2, Cert.KernelIdeal.Gen.hostOps0_1, Cert.KernelIdeal.Gen.hostOps0, List.drop_succ_cons, List.drop_zero]
  after_results_simp

/-- The stretch before the first region's casts (after the first seven operations): it does not write `main_arg2`. -/
theorem pre_keeps_main_arg2 : StableHlo.after Cert.KernelIdeal.Gen.hostOps0_2 (StableHlo.after Cert.KernelIdeal.Gen.hostOps0_1 (StableHlo.after ((Cert.KernelIdeal.Gen.hostOps0 (F := F)).drop 7) VK)) (Proc.devRef .tc Cert.KernelIdeal.main_arg2) = VK (Proc.devRef .tc Cert.KernelIdeal.main_arg2) := by
  simp only [Cert.KernelIdeal.Gen.hostOps0_2, Cert.KernelIdeal.Gen.hostOps0_1, Cert.KernelIdeal.Gen.hostOps0, List.drop_succ_cons, List.drop_zero]
  after_results_simp

/-- The stretch before the first region's casts (after the first seven operations): it does not write `main_arg3`. -/
theorem pre_keeps_main_arg3 : StableHlo.after Cert.KernelIdeal.Gen.hostOps0_2 (StableHlo.after Cert.KernelIdeal.Gen.hostOps0_1 (StableHlo.after ((Cert.KernelIdeal.Gen.hostOps0 (F := F)).drop 7) VK)) (Proc.devRef .tc Cert.KernelIdeal.main_arg3) = VK (Proc.devRef .tc Cert.KernelIdeal.main_arg3) := by
  simp only [Cert.KernelIdeal.Gen.hostOps0_2, Cert.KernelIdeal.Gen.hostOps0_1, Cert.KernelIdeal.Gen.hostOps0, List.drop_succ_cons, List.drop_zero]
  after_results_simp

/-- The stretch before the first region's casts (after the first seven operations): it does not write `main_arg4`. -/
theorem pre_keeps_main_arg4 : StableHlo.after Cert.KernelIdeal.Gen.hostOps0_2 (StableHlo.after Cert.KernelIdeal.Gen.hostOps0_1 (StableHlo.after ((Cert.KernelIdeal.Gen.hostOps0 (F := F)).drop 7) VK)) (Proc.devRef .tc Cert.KernelIdeal.main_arg4) = VK (Proc.devRef .tc Cert.KernelIdeal.main_arg4) := by
  simp only [Cert.KernelIdeal.Gen.hostOps0_2, Cert.KernelIdeal.Gen.hostOps0_1, Cert.KernelIdeal.Gen.hostOps0, List.drop_succ_cons, List.drop_zero]
  after_results_simp

/-- The stretch before the first region's casts (after the first seven operations): it does not write `main_arg5`. -/
theorem pre_keeps_main_arg5 : StableHlo.after Cert.KernelIdeal.Gen.hostOps0_2 (StableHlo.after Cert.KernelIdeal.Gen.hostOps0_1 (StableHlo.after ((Cert.KernelIdeal.Gen.hostOps0 (F := F)).drop 7) VK)) (Proc.devRef .tc Cert.KernelIdeal.main_arg5) = VK (Proc.devRef .tc Cert.KernelIdeal.main_arg5) := by
  simp only [Cert.KernelIdeal.Gen.hostOps0_2, Cert.KernelIdeal.Gen.hostOps0_1, Cert.KernelIdeal.Gen.hostOps0, List.drop_succ_cons, List.drop_zero]
  after_results_simp

/-- The casts before the first region: it does not write `main_v3`. -/
theorem cast0_keeps_main_v3 : StableHlo.after Cert.KernelIdeal.Gen.hostOps0_3 VK (Proc.devRef .tc Cert.KernelIdeal.main_v3) = VK (Proc.devRef .tc Cert.KernelIdeal.main_v3) := by
  simp only [Cert.KernelIdeal.Gen.hostOps0_3, List.drop_succ_cons, List.drop_zero]
  after_results_simp

/-- The casts before the first region: it does not write `main_v6`. -/
theorem cast0_keeps_main_v6 : StableHlo.after Cert.KernelIdeal.Gen.hostOps0_3 VK (Proc.devRef .tc Cert.KernelIdeal.main_v6) = VK (Proc.devRef .tc Cert.KernelIdeal.main_v6) := by
  simp only [Cert.KernelIdeal.Gen.hostOps0_3, List.drop_succ_cons, List.drop_zero]
  after_results_simp

/-- The casts before the first region: it does not write `main_v30`. -/
theorem cast0_keeps_main_v30 : StableHlo.after Cert.KernelIdeal.Gen.hostOps0_3 VK (Proc.devRef .tc Cert.KernelIdeal.main_v30) = VK (Proc.devRef .tc Cert.KernelIdeal.main_v30) := by
  simp only [Cert.KernelIdeal.Gen.hostOps0_3, List.drop_succ_cons, List.drop_zero]
  after_results_simp

/-- The casts before the first region: it does not write `main_arg3`. -/
theorem cast0_keeps_main_arg3 : StableHlo.after Cert.KernelIdeal.Gen.hostOps0_3 VK (Proc.devRef .tc Cert.KernelIdeal.main_arg3) = VK (Proc.devRef .tc Cert.KernelIdeal.main_arg3) := by
  simp only [Cert.KernelIdeal.Gen.hostOps0_3, List.drop_succ_cons, List.drop_zero]
  after_results_simp

/-- The casts before the first region: it does not write `main_arg4`. -/
theorem cast0_keeps_main_arg4 : StableHlo.after Cert.KernelIdeal.Gen.hostOps0_3 VK (Proc.devRef .tc Cert.KernelIdeal.main_arg4) = VK (Proc.devRef .tc Cert.KernelIdeal.main_arg4) := by
  simp only [Cert.KernelIdeal.Gen.hostOps0_3, List.drop_succ_cons, List.drop_zero]
  after_results_simp

/-- The casts before the first region: it does not write `main_arg5`. -/
theorem cast0_keeps_main_arg5 : StableHlo.after Cert.KernelIdeal.Gen.hostOps0_3 VK (Proc.devRef .tc Cert.KernelIdeal.main_arg5) = VK (Proc.devRef .tc Cert.KernelIdeal.main_arg5) := by
  simp only [Cert.KernelIdeal.Gen.hostOps0_3, List.drop_succ_cons, List.drop_zero]
  after_results_simp

/-- The stretch between the regions: it does not write `main_v3`. -/
theorem mid_keeps_main_v3 : StableHlo.after Cert.KernelIdeal.Gen.hostOps1_1 (StableHlo.after Cert.KernelIdeal.Gen.hostOps1 VK) (Proc.devRef .tc Cert.KernelIdeal.main_v3) = VK (Proc.devRef .tc Cert.KernelIdeal.main_v3) := by
  simp only [Cert.KernelIdeal.Gen.hostOps1_1, Cert.KernelIdeal.Gen.hostOps1, List.drop_succ_cons, List.drop_zero]
  after_results_simp

/-- The stretch between the regions: it does not write `main_v6`. -/
theorem mid_keeps_main_v6 : StableHlo.after Cert.KernelIdeal.Gen.hostOps1_1 (StableHlo.after Cert.KernelIdeal.Gen.hostOps1 VK) (Proc.devRef .tc Cert.KernelIdeal.main_v6) = VK (Proc.devRef .tc Cert.KernelIdeal.main_v6) := by
  simp only [Cert.KernelIdeal.Gen.hostOps1_1, Cert.KernelIdeal.Gen.hostOps1, List.drop_succ_cons, List.drop_zero]
  after_results_simp

/-- The stretch between the regions: it does not write `main_v30`. -/
theorem mid_keeps_main_v30 : StableHlo.after Cert.KernelIdeal.Gen.hostOps1_1 (StableHlo.after Cert.KernelIdeal.Gen.hostOps1 VK) (Proc.devRef .tc Cert.KernelIdeal.main_v30) = VK (Proc.devRef .tc Cert.KernelIdeal.main_v30) := by
  simp only [Cert.KernelIdeal.Gen.hostOps1_1, Cert.KernelIdeal.Gen.hostOps1, List.drop_succ_cons, List.drop_zero]
  after_results_simp

/-- The stretch between the regions: it does not write `main_arg4`. -/
theorem mid_keeps_main_arg4 : StableHlo.after Cert.KernelIdeal.Gen.hostOps1_1 (StableHlo.after Cert.KernelIdeal.Gen.hostOps1 VK) (Proc.devRef .tc Cert.KernelIdeal.main_arg4) = VK (Proc.devRef .tc Cert.KernelIdeal.main_arg4) := by
  simp only [Cert.KernelIdeal.Gen.hostOps1_1, Cert.KernelIdeal.Gen.hostOps1, List.drop_succ_cons, List.drop_zero]
  after_results_simp

/-- The stretch between the regions: it does not write `main_arg5`. -/
theorem mid_keeps_main_arg5 : StableHlo.after Cert.KernelIdeal.Gen.hostOps1_1 (StableHlo.after Cert.KernelIdeal.Gen.hostOps1 VK) (Proc.devRef .tc Cert.KernelIdeal.main_arg5) = VK (Proc.devRef .tc Cert.KernelIdeal.main_arg5) := by
  simp only [Cert.KernelIdeal.Gen.hostOps1_1, Cert.KernelIdeal.Gen.hostOps1, List.drop_succ_cons, List.drop_zero]
  after_results_simp

/-- The casts before the second region: it does not write `main_v3`. -/
theorem cast1_keeps_main_v3 : StableHlo.after Cert.KernelIdeal.Gen.hostOps1_2 VK (Proc.devRef .tc Cert.KernelIdeal.main_v3) = VK (Proc.devRef .tc Cert.KernelIdeal.main_v3) := by
  simp only [Cert.KernelIdeal.Gen.hostOps1_2, List.drop_succ_cons, List.drop_zero]
  after_results_simp

/-- The casts before the second region: it does not write `main_v6`. -/
theorem cast1_keeps_main_v6 : StableHlo.after Cert.KernelIdeal.Gen.hostOps1_2 VK (Proc.devRef .tc Cert.KernelIdeal.main_v6) = VK (Proc.devRef .tc Cert.KernelIdeal.main_v6) := by
  simp only [Cert.KernelIdeal.Gen.hostOps1_2, List.drop_succ_cons, List.drop_zero]
  after_results_simp

/-- The casts before the second region: it does not write `main_v30`. -/
theorem cast1_keeps_main_v30 : StableHlo.after Cert.KernelIdeal.Gen.hostOps1_2 VK (Proc.devRef .tc Cert.KernelIdeal.main_v30) = VK (Proc.devRef .tc Cert.KernelIdeal.main_v30) := by
  simp only [Cert.KernelIdeal.Gen.hostOps1_2, List.drop_succ_cons, List.drop_zero]
  after_results_simp

/-- The casts before the second region: it does not write `main_arg5`. -/
theorem cast1_keeps_main_arg5 : StableHlo.after Cert.KernelIdeal.Gen.hostOps1_2 VK (Proc.devRef .tc Cert.KernelIdeal.main_arg5) = VK (Proc.devRef .tc Cert.KernelIdeal.main_arg5) := by
  simp only [Cert.KernelIdeal.Gen.hostOps1_2, List.drop_succ_cons, List.drop_zero]
  after_results_simp

/-- The first region's left operand is the first argument narrowed to bf16. -/
theorem cast0_left : StableHlo.after Cert.KernelIdeal.Gen.hostOps0_3 VK (Proc.devRef .tc Cert.KernelIdeal.main_call1_v0) = truncf .bf16 (VK (Proc.devRef .tc Cert.KernelIdeal.main_arg0)) (by decide) := by
  simp only [Cert.KernelIdeal.Gen.hostOps0_3]
  after_results_simp
  try simp only [TRef.ofBuf, TRef.toBuf, cast_eq]
  all_goals rfl

/-- The first region's right operand is the third argument narrowed to bf16. -/
theorem cast0_right : StableHlo.after Cert.KernelIdeal.Gen.hostOps0_3 VK (Proc.devRef .tc Cert.KernelIdeal.main_call1_v1) = truncf .bf16 (VK (Proc.devRef .tc Cert.KernelIdeal.main_arg2)) (by decide) := by
  simp only [Cert.KernelIdeal.Gen.hostOps0_3]
  after_results_simp
  try simp only [TRef.ofBuf, TRef.toBuf, cast_eq]
  all_goals rfl

/-- The second region's left operand is the first layer's output narrowed to bf16. -/
theorem cast1_left : StableHlo.after Cert.KernelIdeal.Gen.hostOps1_2 VK (Proc.devRef .tc Cert.KernelIdeal.main_call3_v0) = truncf .bf16 (VK (Proc.devRef .tc Cert.KernelIdeal.main_v47)) (by decide) := by
  simp only [Cert.KernelIdeal.Gen.hostOps1_2]
  after_results_simp
  try simp only [TRef.ofBuf, TRef.toBuf, cast_eq]
  all_goals rfl

/-- The second region's right operand is the fifth argument narrowed to bf16. -/
theorem cast1_right : StableHlo.after Cert.KernelIdeal.Gen.hostOps1_2 VK (Proc.devRef .tc Cert.KernelIdeal.main_call3_v1) = truncf .bf16 (VK (Proc.devRef .tc Cert.KernelIdeal.main_arg4)) (by decide) := by
  simp only [Cert.KernelIdeal.Gen.hostOps1_2]
  after_results_simp
  try simp only [TRef.ofBuf, TRef.toBuf, cast_eq]
  all_goals rfl

end Cert.Stages

end
-- ==== Proof.KernelValue.lean ====
/-
  The kernel program's result as a function of its arguments, and its equality with the reference's.

  The program's host operations are those of the reference, in the same order and with the same literals, except at the
  two dense layers: there the kernel program narrows both operands to bf16 and runs a row-blocked matrix product on the
  TensorCore, where the reference applies `dot_general`. Over the extended reals a change of float format is the identity
  and both products are the same sum over the contracted axis, so each region's result array is the reference's
  `dot_general` of the un-narrowed operands. Everything around the two products is carried along unopened: the contents
  of every buffer at each boundary of the program are read back, level by level, to the launch memory.
-/
import proofs.«164223_j27659589386355_1_alg».proof.Proof.Gen.KernelIdeal.Frame
import proofs.«164223_j27659589386355_1_alg».proof.Proof.Region0
import proofs.«164223_j27659589386355_1_alg».proof.Proof.Region1
import proofs.«164223_j27659589386355_1_alg».proof.Proof.RefProduct
import proofs.«164223_j27659589386355_1_alg».proof.Proof.RefRun
import proofs.«164223_j27659589386355_1_alg».proof.Proof.StageNorm
import proofs.«164223_j27659589386355_1_alg».proof.Proof.StageNormAgain
import proofs.«164223_j27659589386355_1_alg».proof.Proof.StageLayer1
import proofs.«164223_j27659589386355_1_alg».proof.Proof.StageSplit
import proofs.«164223_j27659589386355_1_alg».proof.Proof.StageRefKeeps
import proofs.«164223_j27659589386355_1_alg».proof.Proof.StageSecondDot
import proofs.«164223_j27659589386355_1_alg».proof.Proof.StageAggregate2
import proofs.«164223_j27659589386355_1_alg».proof.Proof.StageSoftmax
import proofs.«164223_j27659589386355_1_alg».proof.Proof.StageCarry
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.KernelIdeal.Result

open Cert.KernelIdeal Cert.KernelIdeal.Gen Cert.Stages

/-! ## The two products -/

/-- The first layer: the full product of the narrowed operands is the reference's `dot_general` of the operands
    themselves — narrowing is the identity on the extended reals, and both are the sum over the 512 contraction
    positions of left (row, k) times right (k, column). -/
theorem first_product (x : FVec Ideal S50000x512 .f32) (w : FVec Ideal S512x256 .f32) (h : FTy.bits .bf16 < FTy.bits .f32) :
    Region0.product (truncf .bf16 x h) (truncf .bf16 w h)
      = Host.dotGeneral (F := Ideal) (φ₁ := .f32) (φ₂ := .f32) Cert.ReferenceIdeal.dot_S50000x512_S512x256_S50000x256_1_0_0_1_n_n none x w := by
  funext i
  rw [Cert.ReferenceIdeal.Product.first_apply]
  rfl

/-- The second layer, the same with 256 contraction positions. -/
theorem second_product (x : FVec Ideal S50000x256 .f32) (w : FVec Ideal S256x64 .f32) (h : FTy.bits .bf16 < FTy.bits .f32) :
    Region1.product (truncf .bf16 x h) (truncf .bf16 w h)
      = Host.dotGeneral (F := Ideal) (φ₁ := .f32) (φ₂ := .f32) Cert.ReferenceIdeal.dot_S50000x256_S256x64_S50000x64_1_0_0_1_n_n none x w := by
  funext i
  rw [Cert.ReferenceIdeal.Product.second_apply]
  rfl

/-! ## The index vectors

Both programs begin with the same seven operations: they cut the two rows out of the edge array, flatten them, and
append the node numbers 0 … 49999 to each (the self loops), giving the source and the destination vector of the 850000
edges. Everything later reads these two vectors and the six arguments; nothing later writes them. -/

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)

/-- The kernel program's buffers after its first seven host operations. -/
def kerHead (c : Dev nD) : Valuation τ sig (Elt Ideal) :=
  StableHlo.after ((hostOps0 (F := Ideal)).take 7) (W0 m ρ c)

/-- The reference's buffers after its first seven operations. -/
def refHead (c : Dev Cert.ReferenceIdeal.nD) : Valuation Cert.ReferenceIdeal.τ Cert.ReferenceIdeal.sig (Elt Ideal) :=
  StableHlo.after ((Cert.ReferenceIdeal.Run.ops (F := Ideal)).take 7) (launchContents m' c)

/-- The source vector is the same in both programs when the edge arrays agree. -/
theorem head_src (c : Dev nD)
    (h1 : m' ((c.tc : Thread Cert.ReferenceIdeal.nD Cert.ReferenceIdeal.τ).loc Cert.ReferenceIdeal.main_arg1) = m ((c.tc : Thread nD τ).loc main_arg1)) :
    kerHead m ρ c (Proc.devRef .tc main_v3) = refHead m' c (Proc.devRef .tc Cert.ReferenceIdeal.main_v3) := by
  unfold kerHead refHead
  simp only [hostOps0, Cert.ReferenceIdeal.Run.ops, List.take_succ_cons, List.take_zero]
  after_results
  have e : launchContents m' c (Proc.devRef .tc Cert.ReferenceIdeal.main_arg1) = W0 m ρ c (Proc.devRef .tc main_arg1) := h1
  rw [e]
  rfl

/-- So is the destination vector. -/
theorem head_dst (c : Dev nD)
    (h1 : m' ((c.tc : Thread Cert.ReferenceIdeal.nD Cert.ReferenceIdeal.τ).loc Cert.ReferenceIdeal.main_arg1) = m ((c.tc : Thread nD τ).loc main_arg1)) :
    kerHead m ρ c (Proc.devRef .tc main_v6) = refHead m' c (Proc.devRef .tc Cert.ReferenceIdeal.main_v6) := by
  unfold kerHead refHead
  simp only [hostOps0, Cert.ReferenceIdeal.Run.ops, List.take_succ_cons, List.take_zero]
  after_results
  have e : launchContents m' c (Proc.devRef .tc Cert.ReferenceIdeal.main_arg1) = W0 m ρ c (Proc.devRef .tc main_arg1) := h1
  rw [e]
  rfl

/-- Argument 0 is untouched by the first seven operations of either program. -/
theorem head_arg0 (c : Dev nD)
    (h : m' ((c.tc : Thread Cert.ReferenceIdeal.nD Cert.ReferenceIdeal.τ).loc Cert.ReferenceIdeal.main_arg0) = m ((c.tc : Thread nD τ).loc main_arg0)) :
    kerHead m ρ c (Proc.devRef .tc main_arg0) = refHead m' c (Proc.devRef .tc Cert.ReferenceIdeal.main_arg0) := by
  unfold kerHead refHead
  simp only [hostOps0, Cert.ReferenceIdeal.Run.ops, List.take_succ_cons, List.take_zero]
  after_results
  exact h.symm

/-- Argument 2 is untouched by the first seven operations of either program. -/
theorem head_arg2 (c : Dev nD)
    (h : m' ((c.tc : Thread Cert.ReferenceIdeal.nD Cert.ReferenceIdeal.τ).loc Cert.ReferenceIdeal.main_arg2) = m ((c.tc : Thread nD τ).loc main_arg2)) :
    kerHead m ρ c (Proc.devRef .tc main_arg2) = refHead m' c (Proc.devRef .tc Cert.ReferenceIdeal.main_arg2) := by
  unfold kerHead refHead
  simp only [hostOps0, Cert.ReferenceIdeal.Run.ops, List.take_succ_cons, List.take_zero]
  after_results
  exact h.symm

/-- Argument 3 is untouched by the first seven operations of either program. -/
theorem head_arg3 (c : Dev nD)
    (h : m' ((c.tc : Thread Cert.ReferenceIdeal.nD Cert.ReferenceIdeal.τ).loc Cert.ReferenceIdeal.main_arg3) = m ((c.tc : Thread nD τ).loc main_arg3)) :
    kerHead m ρ c (Proc.devRef .tc main_arg3) = refHead m' c (Proc.devRef .tc Cert.ReferenceIdeal.main_arg3) := by
  unfold kerHead refHead
  simp only [hostOps0, Cert.ReferenceIdeal.Run.ops, List.take_succ_cons, List.take_zero]
  after_results
  exact h.symm

/-- Argument 4 is untouched by the first seven operations of either program. -/
theorem head_arg4 (c : Dev nD)
    (h : m' ((c.tc : Thread Cert.ReferenceIdeal.nD Cert.ReferenceIdeal.τ).loc Cert.ReferenceIdeal.main_arg4) = m ((c.tc : Thread nD τ).loc main_arg4)) :
    kerHead m ρ c (Proc.devRef .tc main_arg4) = refHead m' c (Proc.devRef .tc Cert.ReferenceIdeal.main_arg4) := by
  unfold kerHead refHead
  simp only [hostOps0, Cert.ReferenceIdeal.Run.ops, List.take_succ_cons, List.take_zero]
  after_results
  exact h.symm

/-- Argument 5 is untouched by the first seven operations of either program. -/
theorem head_arg5 (c : Dev nD)
    (h : m' ((c.tc : Thread Cert.ReferenceIdeal.nD Cert.ReferenceIdeal.τ).loc Cert.ReferenceIdeal.main_arg5) = m ((c.tc : Thread nD τ).loc main_arg5)) :
    kerHead m ρ c (Proc.devRef .tc main_arg5) = refHead m' c (Proc.devRef .tc Cert.ReferenceIdeal.main_arg5) := by
  unfold kerHead refHead
  simp only [hostOps0, Cert.ReferenceIdeal.Run.ops, List.take_succ_cons, List.take_zero]
  after_results
  exact h.symm

/-! ## The program's boundaries

The contents of the kernel program's buffers at its boundaries (before and after each region) are folds of its host
stretches; each is restated over the buffers its first seven operations leave. -/

theorem W3_eq (c : Dev nD) : W3 m ρ c
    = StableHlo.after hostOps0_2 (StableHlo.after hostOps0_1 (StableHlo.after ((hostOps0 (F := Ideal)).drop 7) (kerHead m ρ c))) := by
  show StableHlo.after hostOps0_2 (StableHlo.after hostOps0_1 (StableHlo.after hostOps0 (W0 m ρ c))) = _
  rw [after_split 7 (hostOps0 (F := Ideal)) (W0 m ρ c)]
  rfl
theorem W4_eq (c : Dev nD) : W4 m ρ c = StableHlo.after hostOps0_3 (W3 m ρ c) := rfl
theorem W7_eq (c : Dev nD) : W7 m ρ c = StableHlo.after hostOps1_1 (StableHlo.after hostOps1 (W5 m ρ c)) := rfl
theorem W8_eq (c : Dev nD) : W8 m ρ c = StableHlo.after hostOps1_2 (W7 m ρ c) := rfl
theorem W10_eq (c : Dev nD) : W10 m ρ c = StableHlo.after hostOps2 (W9 m ρ c) := rfl
theorem W11_eq (c : Dev nD) : W11 m ρ c = StableHlo.after hostOps2_1 (W10 m ρ c) := rfl

/-! ## At the first region's exit -/

/-- At the first region's exit `main_v3` still holds what the first seven operations left there. -/
theorem at5_main_v3 (c : Dev nD) : W5 m ρ c (Proc.devRef .tc main_v3) = kerHead m ρ c (Proc.devRef .tc main_v3) :=
  (W5_of_ne m ρ c main_v3 (by decide)).trans (by rw [W4_eq, cast0_keeps_main_v3, W3_eq, pre_keeps_main_v3])

/-- At the first region's exit `main_v6` still holds what the first seven operations left there. -/
theorem at5_main_v6 (c : Dev nD) : W5 m ρ c (Proc.devRef .tc main_v6) = kerHead m ρ c (Proc.devRef .tc main_v6) :=
  (W5_of_ne m ρ c main_v6 (by decide)).trans (by rw [W4_eq, cast0_keeps_main_v6, W3_eq, pre_keeps_main_v6])

/-- At the first region's exit `main_arg3` still holds what the first seven operations left there. -/
theorem at5_main_arg3 (c : Dev nD) : W5 m ρ c (Proc.devRef .tc main_arg3) = kerHead m ρ c (Proc.devRef .tc main_arg3) :=
  (W5_of_ne m ρ c main_arg3 (by decide)).trans (by rw [W4_eq, cast0_keeps_main_arg3, W3_eq, pre_keeps_main_arg3])

/-- At the first region's exit `main_arg4` still holds what the first seven operations left there. -/
theorem at5_main_arg4 (c : Dev nD) : W5 m ρ c (Proc.devRef .tc main_arg4) = kerHead m ρ c (Proc.devRef .tc main_arg4) :=
  (W5_of_ne m ρ c main_arg4 (by decide)).trans (by rw [W4_eq, cast0_keeps_main_arg4, W3_eq, pre_keeps_main_arg4])

/-- At the first region's exit `main_arg5` still holds what the first seven operations left there. -/
theorem at5_main_arg5 (c : Dev nD) : W5 m ρ c (Proc.devRef .tc main_arg5) = kerHead m ρ c (Proc.devRef .tc main_arg5) :=
  (W5_of_ne m ρ c main_arg5 (by decide)).trans (by rw [W4_eq, cast0_keeps_main_arg5, W3_eq, pre_keeps_main_arg5])

/-- The edge normalisation at the first region's exit is the reference's. -/
theorem norm5 (c : Dev nD)
    (h1 : m' ((c.tc : Thread Cert.ReferenceIdeal.nD Cert.ReferenceIdeal.τ).loc Cert.ReferenceIdeal.main_arg1) = m ((c.tc : Thread nD τ).loc main_arg1)) :
    W5 m ρ c (Proc.devRef .tc main_v30) = StableHlo.after ((refTail (F := Ideal)).take 35) (refHead m' c) (Proc.devRef .tc Cert.ReferenceIdeal.main_v31) :=
  (W5_of_ne m ρ c main_v30 (by decide)).trans (by
    rw [W4_eq, cast0_keeps_main_v30, W3_eq]
    exact norm_agrees (kerHead m ρ c) (refHead m' c) (head_src m ρ m' c h1) (head_dst m ρ m' c h1))

/-- The first region's result array is the reference's first product: the region leaves the full product of its two
    operand arrays, which are the first and third arguments narrowed to bf16. -/
theorem prod5 (c : Dev nD)
    (h0 : m' ((c.tc : Thread Cert.ReferenceIdeal.nD Cert.ReferenceIdeal.τ).loc Cert.ReferenceIdeal.main_arg0) = m ((c.tc : Thread nD τ).loc main_arg0))
    (h2 : m' ((c.tc : Thread Cert.ReferenceIdeal.nD Cert.ReferenceIdeal.τ).loc Cert.ReferenceIdeal.main_arg2) = m ((c.tc : Thread nD τ).loc main_arg2)) :
    W5 m ρ c (Proc.devRef .tc main_v31) = StableHlo.after ((refTail (F := Ideal)).take 15) (refHead m' c) (Proc.devRef .tc Cert.ReferenceIdeal.main_v15) := by
  rw [first_dot, ← head_arg0 m ρ m' c h0, ← head_arg2 m ρ m' c h2]
  refine (W5_arr m ρ c 2).trans ((Region0.arr_out (V4 m ρ) c).trans ?_)
  show Region0.product (W4 m ρ c (Proc.devRef .tc main_call1_v0)) (W4 m ρ c (Proc.devRef .tc main_call1_v1)) = _
  rw [W4_eq, cast0_left, cast0_right, W3_eq, pre_keeps_main_arg0, pre_keeps_main_arg2]
  exact first_product _ _ _

/-! ## Between the regions -/

/-- The first layer's output is the reference's. -/
theorem relu7 (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3)) :
    W7 m ρ c (Proc.devRef .tc main_v47) = StableHlo.after ((refTail (F := Ideal)).take 56) (refHead m' c) (Proc.devRef .tc Cert.ReferenceIdeal.main_v47) := by
  rw [W7_eq]
  exact layer1_agrees (W5 m ρ c) (refHead m' c) (prod5 m ρ m' c h0 h2)
    ((at5_main_v3 m ρ c).trans (head_src m ρ m' c h1)) ((at5_main_v6 m ρ c).trans (head_dst m ρ m' c h1))
    (norm5 m ρ m' c h1) ((at5_main_arg3 m ρ c).trans (head_arg3 m ρ m' c h3))

/-- The fifth argument is untouched up to the second region's casts. -/
theorem at7_main_arg4 (c : Dev nD) : W7 m ρ c (Proc.devRef .tc main_arg4) = kerHead m ρ c (Proc.devRef .tc main_arg4) := by
  rw [W7_eq, mid_keeps_main_arg4]; exact at5_main_arg4 m ρ c

/-! ## At the second region's exit -/

/-- At the second region's exit `main_v3` still holds what the first seven operations left there. -/
theorem at9_main_v3 (c : Dev nD) : W9 m ρ c (Proc.devRef .tc main_v3) = kerHead m ρ c (Proc.devRef .tc main_v3) :=
  (W9_of_ne m ρ c main_v3 (by decide)).trans (by rw [W8_eq, cast1_keeps_main_v3, W7_eq, mid_keeps_main_v3]; exact at5_main_v3 m ρ c)

/-- At the second region's exit `main_v6` still holds what the first seven operations left there. -/
theorem at9_main_v6 (c : Dev nD) : W9 m ρ c (Proc.devRef .tc main_v6) = kerHead m ρ c (Proc.devRef .tc main_v6) :=
  (W9_of_ne m ρ c main_v6 (by decide)).trans (by rw [W8_eq, cast1_keeps_main_v6, W7_eq, mid_keeps_main_v6]; exact at5_main_v6 m ρ c)

/-- At the second region's exit `main_arg5` still holds what the first seven operations left there. -/
theorem at9_main_arg5 (c : Dev nD) : W9 m ρ c (Proc.devRef .tc main_arg5) = kerHead m ρ c (Proc.devRef .tc main_arg5) :=
  (W9_of_ne m ρ c main_arg5 (by decide)).trans (by rw [W8_eq, cast1_keeps_main_arg5, W7_eq, mid_keeps_main_arg5]; exact at5_main_arg5 m ρ c)

/-- The edge normalisation at the second region's exit is the one the reference computes again for its second layer
    (its operations 58 to 77 after the seventh, applied to what the first 57 leave). -/
theorem norm9 (c : Dev nD)
    (h1 : m' ((c.tc : Thread Cert.ReferenceIdeal.nD Cert.ReferenceIdeal.τ).loc Cert.ReferenceIdeal.main_arg1) = m ((c.tc : Thread nD τ).loc main_arg1)) :
    W9 m ρ c (Proc.devRef .tc main_v30)
      = StableHlo.after (((refTail (F := Ideal)).drop 57).take 20) (StableHlo.after ((refTail (F := Ideal)).take 57) (refHead m' c)) (Proc.devRef .tc Cert.ReferenceIdeal.main_v64) :=
  (W9_of_ne m ρ c main_v30 (by decide)).trans (by
    rw [W8_eq, cast1_keeps_main_v30, W7_eq, mid_keeps_main_v30]
    exact ((norm5 m ρ m' c h1).trans (norm_again (refHead m' c)).symm).trans
      (congrFun (after_take_add 57 20 (refTail (F := Ideal)) (refHead m' c)) _))

/-- The second region's result array is the reference's second product. -/
theorem prod9 (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4)) :
    W9 m ρ c (Proc.devRef .tc main_v48) = StableHlo.after ((refTail (F := Ideal)).take 57) (refHead m' c) (Proc.devRef .tc Cert.ReferenceIdeal.main_v48) := by
  rw [second_dot, ← relu7 m ρ m' c h0 h1 h2 h3, ← head_arg4 m ρ m' c h4]
  refine (W9_arr m ρ c 2).trans ((Region1.arr_out (V8 m ρ) c).trans ?_)
  show Region1.product (W8 m ρ c (Proc.devRef .tc main_call3_v0)) (W8 m ρ c (Proc.devRef .tc main_call3_v1)) = _
  rw [W8_eq, cast1_left, cast1_right, at7_main_arg4]
  exact second_product _ _ _

/-! ## The result -/

/-- The second layer's output before the log-softmax is the reference's: the stretch after the second region reads the
    second product, the index vectors, the edge normalisation and the last bias, each of which is the reference's. -/
theorem agg10 (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5)) :
    W10 m ρ c (Proc.devRef .tc main_v63)
      = StableHlo.after (((refTail (F := Ideal)).drop 57).take 38) (StableHlo.after ((refTail (F := Ideal)).take 57) (refHead m' c)) (Proc.devRef .tc Cert.ReferenceIdeal.main_v79) := by
  rw [W10_eq]
  exact aggregate2_agrees (W9 m ρ c) (StableHlo.after ((refTail (F := Ideal)).take 57) (refHead m' c)) (prod9 m ρ m' c h0 h1 h2 h3 h4)
    ((at9_main_v3 m ρ c).trans ((head_src m ρ m' c h1).trans (ref57_keeps_main_v3 (refHead m' c)).symm))
    ((at9_main_v6 m ρ c).trans ((head_dst m ρ m' c h1).trans (ref57_keeps_main_v6 (refHead m' c)).symm))
    (norm9 m ρ m' c h1)
    ((at9_main_arg5 m ρ c).trans ((head_arg5 m ρ m' c h5).trans (ref57_keeps_main_arg5 (refHead m' c)).symm))

/-- The reference's result buffer after its run and the kernel program's result buffer at its last boundary hold the
    same array, when the two launch memories agree on the six arguments: both are the row-wise log-softmax of the same
    second-layer output; the reference's operations are taken in four runs (7, 57, 38 and the last 15). -/
theorem result_eq (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5)) :
    StableHlo.after (Cert.ReferenceIdeal.Run.ops (F := Ideal)) (launchContents m' c) (Proc.devRef .tc Cert.ReferenceIdeal.main_v80)
      = W11 m ρ c (Proc.devRef .tc main_v64) := by
  rw [W11_eq, softmax_agrees (W10 m ρ c) (StableHlo.after (((refTail (F := Ideal)).drop 57).take 38) (StableHlo.after ((refTail (F := Ideal)).take 57) (refHead m' c))) (agg10 m ρ m' c h0 h1 h2 h3 h4 h5)]
  rw [after_split 7 (Cert.ReferenceIdeal.Run.ops (F := Ideal)) (launchContents m' c), after_split 57 ((Cert.ReferenceIdeal.Run.ops (F := Ideal)).drop 7),
    after_split 38 (((Cert.ReferenceIdeal.Run.ops (F := Ideal)).drop 7).drop 57)]
  rfl

end Cert.KernelIdeal.Result

end
-- ==== Proof.RefFrame.lean ====
/-
  The reference's run: every weakly fair execution of its host program terminates with each buffer at what its
  operations, applied in order to the launch contents, leave there. The result buffer is kept in that form; each argument
  buffer is written by no operation, so it ends as launched.
-/
import proofs.«164223_j27659589386355_1_alg».proof.Proof.RefRun
import Idealize.ShloMosaic.Lib.StableHlo.Run

noncomputable section

namespace Cert.ReferenceIdeal.RunValue

open Cert.ReferenceIdeal Cert.ReferenceIdeal.Gen Cert.ReferenceIdeal.Run Idealize.ShloMosaic Idealize.ShloMosaic.TcCoe Idealize.SL.Sem Idealize.ShloMosaic.StableHlo

variable {F : FTy → Type} [FloatOps F]

set_option maxRecDepth 8192 in
set_option maxHeartbeats 46800000 in
/-- From any memory with zero counters the host program terminates, its result buffer at the operations' fold over the
    launch contents and its six arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v80) = StableHlo.after (ops (F := F)) (launchContents m c) (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨h c main_v80,
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RunValue

end
-- ==== Proof.lean ====
/-
  A two-layer graph convolution: in each layer the node features are multiplied by a weight matrix, every edge (and a
  self loop per node) carries the source node's product row, scaled by the symmetric degree normalisation, to its
  destination node, where the rows are added and a bias is added; a relu follows the first layer and a row-wise log-softmax
  the second. The kernel program computes the two dense products on the TensorCore, each as a row-blocked bf16 matrix
  product into a zero accumulator over a one-axis grid (25 blocks of 2000 rows, then 10 blocks of 5000 rows), and
  everything else on the host with the reference's own operations; the reference computes the two products with
  `dot_general`.

  Over the extended reals the narrowing to bf16 is the identity, and a block product into zero is the sum over the
  contracted axis of products of entries, as `dot_general` is; the row blocks tile each result array. So each region
  leaves the reference's product in its result array (Proof/Region0.lean, Proof/Region1.lean, Proof/RefProduct.lean), and
  the two programs' results are the same term of the arguments (Proof/KernelValue.lean). No algebraic law beyond that
  identity of sums is used, so the finiteness of the inputs is never opened. The frames of the two kernel programs are
  the generated ones; the reference's is its run with the result dropped. The idealization rewrote no operation.
-/
import proofs.«164223_j27659589386355_1_alg».proof.Defs
import proofs.«164223_j27659589386355_1_alg».proof.Proof.Gen.Kernel
import proofs.«164223_j27659589386355_1_alg».proof.Proof.Gen.Kernel.Frame
import proofs.«164223_j27659589386355_1_alg».proof.Proof.Gen.KernelIdeal
import proofs.«164223_j27659589386355_1_alg».proof.Proof.Gen.KernelIdeal.Frame
import proofs.«164223_j27659589386355_1_alg».proof.Proof.Gen.ReferenceIdeal
import proofs.«164223_j27659589386355_1_alg».proof.Proof.Gen.Pre_finite_inputs
import proofs.«164223_j27659589386355_1_alg».proof.Proof.KernelRun
import proofs.«164223_j27659589386355_1_alg».proof.Proof.KernelValue
import proofs.«164223_j27659589386355_1_alg».proof.Proof.RefFrame
import Idealize.ShloMosaic.Adequacy
import Idealize.ShloMosaic.Init

noncomputable section

namespace Cert.Proof

open Idealize.ShloMosaic Idealize.ShloMosaic.TcCoe Idealize.SL.Sem

/-- The kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, the result dropped. -/
theorem frame_reference : Cert.frame_ReferenceIdeal := fun m ρ _ =>
  (θ_run Cert.ReferenceIdeal.defs _ _).mono (fun _ h c => (h c).2) (Cert.ReferenceIdeal.RunValue.run (F := Ideal) m ρ)

/-- Over the extended reals both programs end with the same result array: the kernel program's result buffer ends at the
    contents of its last boundary, the reference's at its operations' fold over the launch contents, and the two are
    one term of arguments that agree. -/
theorem algebraic : Cert.algebraic_KernelIdeal_ReferenceIdeal := by
  intro m ρ m' ρ' _ hagree
  refine ⟨fun c => Cert.KernelIdeal.Gen.W11 m ρ c (Proc.devRef .tc Cert.KernelIdeal.main_v64),
    Cert.KernelIdeal.Launch.run_result (F := Ideal) m ρ, ?_⟩
  refine (θ_run Cert.ReferenceIdeal.defs _ _).mono (fun _ h c => ⟨(h c).1.trans ?_, (h c).2⟩)
    (Cert.ReferenceIdeal.RunValue.run (F := Ideal) m' ρ')
  obtain ⟨h0, h1, h2, h3, h4, h5⟩ := hagree c
  exact Cert.KernelIdeal.Result.result_eq m ρ m' c h0 h1 h2 h3 h4 h5

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
